-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S10000x256 .f32) (main_arg1 : FVec F S10000x10000 .f32) (main_arg2 : FVec F S256x256 .f32) (main_arg3 : FVec F S256 .f32) (main_arg4 : FVec F S256x256 .f32) (main_arg5 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S400x10000 : Shape := ⟨2, ![400, 10000]⟩
abbrev S400x256 : Shape := ⟨2, ![400, 256]⟩
abbrev S400x5000 : Shape := ⟨2, ![400, 5000]⟩
abbrev S5000x256 : Shape := ⟨2, ![5000, 256]⟩

abbrev nBuf : Space → Nat
  | .hbm => 11
  | .vmem => 11
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .bf16⟩
  | .hbm, ⟨7, _⟩ => ⟨S1x256, .f32⟩
  | .hbm, ⟨8, _⟩ => ⟨S256x256, .bf16⟩
  | .hbm, ⟨9, _⟩ => ⟨S1x256, .f32⟩
  | .hbm, ⟨10, _⟩ => ⟨S10000x256, .f32⟩
  | .local _ .vmem, ⟨0, _⟩ => ⟨S400x10000, .f32⟩
  | .local _ .vmem, ⟨1, _⟩ => ⟨S400x10000, .f32⟩
  | .local _ .vmem, ⟨2, _⟩ => ⟨S10000x256, .f32⟩
  | .local _ .vmem, ⟨3, _⟩ => ⟨S256x256, .bf16⟩
  | .local _ .vmem, ⟨4, _⟩ => ⟨S1x256, .f32⟩
  | .local _ .vmem, ⟨5, _⟩ => ⟨S256x256, .bf16⟩
  | .local _ .vmem, ⟨6, _⟩ => ⟨S1x256, .f32⟩
  | .local _ .vmem, ⟨7, _⟩ => ⟨S400x256, .f32⟩
  | .local _ .vmem, ⟨8, _⟩ => ⟨S400x256, .f32⟩
  | .local _ .vmem, ⟨9, _⟩ => ⟨S10000x256, .bf16⟩
  | .local _ .vmem, ⟨10, _⟩ => ⟨S10000x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![51], ![false]⟩

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c25_i32 : BitVec 32 := 25#32
  let v4 : BitVec 1 := Scalar.cmpi .sle arg0 c25_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off1 (i : grid0.Coords) : Fin 2 → Nat :=
  let arg0 : BitVec 32 := BitVec.ofNat 32 (i 0).val
  let c1_i32_3 : BitVec 32 := 1#32
  let v11 : BitVec 32 := Scalar.subi arg0 c1_i32_3
  let c400_i32 : BitVec 32 := 400#32
  let v33 : BitVec 32 := Scalar.muli v11 c400_i32
  let v34 : Index := Scalar.indexCast v33
  let c0_15 : Index := 0#32
  ![v34.toNat, 0]
def k0_cond3 (i : grid0.Coords) : BitVec 1 :=
  let arg0 : BitVec 32 := BitVec.ofNat 32 (i 0).val
  let c26_i32 : BitVec 32 := 26#32
  let v8 : BitVec 1 := Scalar.cmpi .sge arg0 c26_i32
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let c25_i32 : BitVec 32 := 25#32
  let v0 : BitVec 1 := Scalar.cmpi .sle arg0 c25_i32
  let c1_i32 : BitVec 32 := 1#32
  let v1 : BitVec 32 := Scalar.subi arg0 c1_i32
  let c0_i32 : BitVec 32 := 0#32
  let v2 : BitVec 32 := Scalar.maxsi v1 c0_i32
  let c25_i32_0 : BitVec 32 := 25#32
  let v3 : BitVec 32 := Scalar.subi arg0 c25_i32_0
  let c1_i32_1 : BitVec 32 := 1#32
  let v4 : BitVec 32 := Scalar.subi v3 c1_i32_1
  let v5 : BitVec 32 := Scalar.select v0 v2 v4
  let c0_i32_2 : BitVec 32 := 0#32
  let c0_i32_3 : BitVec 32 := 0#32
  ![v5.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c25_i32 : BitVec 32 := 25#32
  let v0 : BitVec 32 := Scalar.subi arg0 c25_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S256_S1x256 : S256.ShapeCasts S1x256
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S400x10000_S400x5000_0_0 : ∀ a, (![0, 0] : Fin 2 → Nat) a + S400x5000.size a ≤ S400x10000.size a
  h_S400x5000 : 0 < S400x5000.numel
  slices_S10000x256_o0_0_S5000x256 : S10000x256.Slices ![0, 0] S5000x256
  inb_S400x10000_S400x5000_0_5000 : ∀ a, (![0, 5000] : Fin 2 → Nat) a + S400x5000.size a ≤ S400x10000.size a
  slices_S10000x256_o5000_0_S5000x256 : S10000x256.Slices ![5000, 0] S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  h_S400x256 : 0 < S400x256.numel
  shapeCasts_S400x256_S400x256 : S400x256.ShapeCasts S400x256
  inb_S400x256_S400x256_0_0 : ∀ a, (![0, 0] : Fin 2 → Nat) a + S400x256.size a ≤ S400x256.size a
  dot_S10000x256_S256x256_S10000x256_1_0_0_1_n_n_wf : DotDims.WF S10000x256 S256x256 S10000x256 [1] [0] [0] [1] [] []
  dot_S400x5000_S5000x256_S400x256_1_0_0_1_n_n_wf : DotDims.WF S400x5000 S5000x256 S400x256 [1] [0] [0] [1] [] []
  dot_S400x256_S256x256_S400x256_1_0_0_1_n_n_wf : DotDims.WF S400x256 S256x256 S400x256 [1] [0] [0] [1] [] []
  hrank0 : 0 < grid0.rank
  k0_off1_inb : ∀ i : grid0.Coords, ∀ (k0_h2 : k0_cond2 i = 1#1), ∀ a, (k0_off1 i) a + S400x256.size a ≤ S10000x256.size a
  k0_off1_packedbf16 : ∀ i : grid0.Coords, ∀ (k0_h2 : k0_cond2 i = 1#1), (Rect.unit (s := S10000x256) (k0_off1 i) S400x256.size (k0_off1_inb i k0_h2)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .f32 = 32 ∨ (Rect.block (s := S10000x256) S10000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x256.size a ≤ S10000x256.size a
  hwx0_6 : ∀ i : grid0.Coords, EltTy.bits .f32 = 32 ∨ (Rect.block (s := S10000x256) S400x256.size (cc0_transform_6 i) (hinb0_6 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S400x5000_S5000x256_S400x256_1_0_0_1_n_n : DotDims S400x5000 S5000x256 S400x256 where
  lhsContracting := [1]
  rhsContracting := [0]
  lhsNonContracting := [0]
  rhsNonContracting := [1]
  lhsBatch := []
  rhsBatch := []
  wf := dot_S400x5000_S5000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S400x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S10000x256, .f32⟩
  | .hbm, ⟨7, _⟩ => ⟨S10000x256, .f32⟩
  | .hbm, ⟨8, _⟩ => ⟨S1x256, .f32⟩
  | .hbm, ⟨9, _⟩ => ⟨S10000x256, .f32⟩
  | .hbm, ⟨10, _⟩ => ⟨S10000x256, .f32⟩
  | .hbm, ⟨11, _⟩ => ⟨S_, .f32⟩
  | .hbm, ⟨12, _⟩ => ⟨S10000x256, .f32⟩
  | .hbm, ⟨13, _⟩ => ⟨S10000x256, .f32⟩
  | .hbm, ⟨14, _⟩ => ⟨S10000x256, .f32⟩
  | .hbm, ⟨15, _⟩ => ⟨S10000x256, .f32⟩
  | .hbm, ⟨16, _⟩ => ⟨S1x256, .f32⟩
  | .hbm, ⟨17, _⟩ => ⟨S10000x256, .f32⟩
  | .hbm, ⟨18, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.BitsRuns.lean ====
import proofs.«170257_g54683523612746_cont_9to1_m_282_8_alg».proof.Proof.Gen.Kernel.Frame
import proofs.«170257_g54683523612746_cont_9to1_m_282_8_alg».proof.Proof.Gen.Kernel.Skeleton
import Idealize.ShloMosaic.Lib.WritesUnit

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! The three phases of the fused layer, each as a run of the body on whole memrefs.

The grid has 51 points. Point 0 forms the first support matrix X·W0 and keeps it in the first scratch; points
1 to 25 each form one 400-row slice of relu(A·support0 + b0)·W1 and keep it in the second scratch at its rows;
points 26 to 50 each form one 400-row block of A·support1 + b1 in the output window. -/

/-- The guard of the first phase: the grid coordinate is 0. -/
abbrev cond1 (i : grid0.Coords) : Prop :=
  Scalar.cmpi .ne (Scalar.extui (Scalar.cmpi .eq (BitVec.ofNat 32 (i 0).val) 0#32)) 0#32 = 1#1
/-- The guard of the second phase: the coordinate lies in 1..25. -/
abbrev cond2 (i : grid0.Coords) : Prop := k0_cond2 i = 1#1
/-- The guard of the third phase: the coordinate is at least 26. -/
abbrev cond3 (i : grid0.Coords) : Prop := k0_cond3 i = 1#1

set_option maxHeartbeats 1000000 in
/-- Phase one: from the features and the first weights the body stores their product, rounded, over the whole first scratch. -/
noncomputable def runSupport (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (arg9 : Memref sig .tc .vmem S10000x256 .bf16) (harg9 : arg9.IsWhole)
    (h1 : cond1 i) (h2 : ¬cond2 i) (h3 : ¬cond3 i)
    (x : Vec F S10000x256 .f32) (w : Vec F S256x256 .bf16) :
    { L8 : List (View.Piece (Elt F) S10000x256 .bf16) //
      ∀ (E : Set ℕ) (K : PUnit → sProp 𝕄),
        iprop(owns (c : Thread nD τ) arg2 fullShare x ∗ owns (c : Thread nD τ) arg3 fullShare w ∗ (∃ d, owns (c : Thread nD τ) arg8 fullShare d)
            ∗ (iprop(owns (c : Thread nD τ) arg2 fullShare x ∗ owns (c : Thread nD τ) arg3 fullShare w
                ∗ (∃ f, arg8.view.loc (c : Thread nD τ) ↦[arg8.view.set]{fullShare} arg8.view.writes (Elt F) f L8)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨?_, fun E K => ?run⟩
  case run =>
    simp only [cc0__fused_kernel_eq_skeleton]; unfold cc0__fused_kernel_skel
    unfold owns
    iintro ⟨⟨%f2, %hf2, H2⟩, ⟨%f3, %hf3, H3⟩, ⟨%d8, %f8, -, H8⟩, Hk⟩
    obtain rfl := harg2.eq_unread hf2; obtain rfl := harg3.eq_unread hf3
    sl_exec (disch := first | exact h1 | exact h2 | exact h3)
    sl_step
    iapply Hk
    isplitl [H2]
    · iexists _; isplitr; · ipureintro; exact harg2.read_unread _
      iexact H2
    isplitl [H3]
    · iexists _; isplitr; · ipureintro; exact harg3.read_unread _
      iexact H3
    iexists _; iexact H8

set_option maxHeartbeats 1000000 in
/-- Phase two: from the first scratch, one adjacency block, the first bias and the second weights the body stores one
    slice of the hidden product, rounded, over 400 rows of the second scratch. -/
noncomputable def runHidden (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (arg9 : Memref sig .tc .vmem S10000x256 .bf16) (harg9 : arg9.IsWhole)
    (h1 : ¬cond1 i) (h2 : cond2 i) (h3 : ¬cond3 i)
    (s0 : Vec F S10000x256 .bf16) (a : Vec F S400x10000 .f32) (b : Vec F S1x256 .f32) (w : Vec F S256x256 .bf16) (z : Vec F S10000x256 .bf16) :
    { L9 : List (View.Piece (Elt F) S10000x256 .bf16) //
      ∀ (E : Set ℕ) (K : PUnit → sProp 𝕄),
        iprop(owns (c : Thread nD τ) arg8 fullShare s0 ∗ owns (c : Thread nD τ) arg1 fullShare a ∗ owns (c : Thread nD τ) arg4 fullShare b
            ∗ owns (c : Thread nD τ) arg5 fullShare w ∗ owns (c : Thread nD τ) arg9 fullShare z
            ∗ (iprop(owns (c : Thread nD τ) arg8 fullShare s0 ∗ owns (c : Thread nD τ) arg1 fullShare a ∗ owns (c : Thread nD τ) arg4 fullShare b
                ∗ owns (c : Thread nD τ) arg5 fullShare w
                ∗ (arg9.view.loc (c : Thread nD τ) ↦[arg9.view.set]{fullShare} arg9.view.writes (Elt F) (harg9.unread z) L9)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨?_, fun E K => ?run⟩
  case run =>
    simp only [cc0__fused_kernel_eq_skeleton]; unfold cc0__fused_kernel_skel
    unfold owns
    iintro ⟨⟨%f8, %hf8, H8⟩, ⟨%f1, %hf1, H1⟩, ⟨%f4, %hf4, H4⟩, ⟨%f5, %hf5, H5⟩, ⟨%f9, %hf9, H9⟩, Hk⟩
    obtain rfl := harg8.eq_unread hf8; obtain rfl := harg1.eq_unread hf1; obtain rfl := harg4.eq_unread hf4
    obtain rfl := harg5.eq_unread hf5; obtain rfl := harg9.eq_unread hf9
    sl_exec (disch := first | exact h1 | exact h2 | exact h3)
    sl_step
    iapply Hk
    isplitl [H8]
    · iexists _; isplitr; · ipureintro; exact harg8.read_unread _
      iexact H8
    isplitl [H1]
    · iexists _; isplitr; · ipureintro; exact harg1.read_unread _
      iexact H1
    isplitl [H4]
    · iexists _; isplitr; · ipureintro; exact harg4.read_unread _
      iexact H4
    isplitl [H5]
    · iexists _; isplitr; · ipureintro; exact harg5.read_unread _
      iexact H5
    iexact H9

set_option maxHeartbeats 1000000 in
/-- Phase three: from the second scratch, one adjacency block and the second bias the body stores one block of the
    result over the whole output window. -/
noncomputable def runOut (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (arg9 : Memref sig .tc .vmem S10000x256 .bf16) (harg9 : arg9.IsWhole)
    (h1 : ¬cond1 i) (h2 : ¬cond2 i) (h3 : cond3 i)
    (s1 : Vec F S10000x256 .bf16) (a : Vec F S400x10000 .f32) (b : Vec F S1x256 .f32) :
    { L7 : List (View.Piece (Elt F) S400x256 .f32) //
      ∀ (E : Set ℕ) (K : PUnit → sProp 𝕄),
        iprop(owns (c : Thread nD τ) arg9 fullShare s1 ∗ owns (c : Thread nD τ) arg1 fullShare a ∗ owns (c : Thread nD τ) arg6 fullShare b
            ∗ (∃ d, owns (c : Thread nD τ) arg7 fullShare d)
            ∗ (iprop(owns (c : Thread nD τ) arg9 fullShare s1 ∗ owns (c : Thread nD τ) arg1 fullShare a ∗ owns (c : Thread nD τ) arg6 fullShare b
                ∗ (∃ f, arg7.view.loc (c : Thread nD τ) ↦[arg7.view.set]{fullShare} arg7.view.writes (Elt F) f L7)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨?_, fun E K => ?run⟩
  case run =>
    simp only [cc0__fused_kernel_eq_skeleton]; unfold cc0__fused_kernel_skel
    unfold owns
    iintro ⟨⟨%f9, %hf9, H9⟩, ⟨%f1, %hf1, H1⟩, ⟨%f6, %hf6, H6⟩, ⟨%d7, %f7, -, H7⟩, Hk⟩
    obtain rfl := harg9.eq_unread hf9; obtain rfl := harg1.eq_unread hf1; obtain rfl := harg6.eq_unread hf6
    sl_exec (disch := first | exact h1 | exact h2 | exact h3)
    sl_step
    iapply Hk
    isplitl [H9]
    · iexists _; isplitr; · ipureintro; exact harg9.read_unread _
      iexact H9
    isplitl [H1]
    · iexists _; isplitr; · ipureintro; exact harg1.read_unread _
      iexact H1
    isplitl [H6]
    · iexists _; isplitr; · ipureintro; exact harg6.read_unread _
      iexact H6
    iexists _; iexact H7

end Cert.Kernel.Body

end
-- ==== Proof.BitsStages.lean ====
import proofs.«170257_g54683523612746_cont_9to1_m_282_8_alg».proof.Proof.BitsRuns
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.Sem
open Facts₀ Facts

variable {F : FTy → Type} [FloatOps F]

variable (m : (ℓ : Loc nD τ sig) → Buf (Elt F) ℓ)

/-! ## What the body computes, phase by phase, as functions of the windows' blocks

The blocks are read off the arrays as the region finds them. Window 0 is one 400-row block of the adjacency
(block `t - 1` at points 1..25, block `t - 26` at points 26..50); windows 1 to 5 are whole arrays: the
features, the first weights, the first bias as one row, the second weights, the second bias as one row. -/

/-- The point count, as a numeral. -/
theorem N_eq : cfg0.N = 51 := N_0

/-- Window 0's block at a point: 400 rows of the adjacency. -/
abbrev adjBlk (c : Dev nD) (t : Fin cfg0.N) : Vec F S400x10000 .f32 := iblk m c 0 t
/-- Window 1's block: the features. -/
abbrev featBlk (c : Dev nD) (t : Fin cfg0.N) : Vec F S10000x256 .f32 := iblk m c 1 t
/-- Window 2's block: the first layer's weights. -/
abbrev wgt0Blk (c : Dev nD) (t : Fin cfg0.N) : Vec F S256x256 .bf16 := iblk m c 2 t
/-- Window 3's block: the first layer's bias, one row. -/
abbrev bias0Blk (c : Dev nD) (t : Fin cfg0.N) : Vec F S1x256 .f32 := iblk m c 3 t
/-- Window 4's block: the second layer's weights. -/
abbrev wgt1Blk (c : Dev nD) (t : Fin cfg0.N) : Vec F S256x256 .bf16 := iblk m c 4 t
/-- Window 5's block: the second layer's bias, one row. -/
abbrev bias1Blk (c : Dev nD) (t : Fin cfg0.N) : Vec F S1x256 .f32 := iblk m c 5 t

/-- Columns 0..4999 of an adjacency block. -/
abbrev rectL : Rect S400x10000 := Rect.unit (s := S400x10000) ![0, 0] S400x5000.size Gen.inb_S400x10000_S400x5000_0_0
/-- Columns 5000..9999 of an adjacency block. -/
abbrev rectR : Rect S400x10000 := Rect.unit (s := S400x10000) ![0, 5000] S400x5000.size Gen.inb_S400x10000_S400x5000_0_5000

/-- The first grid point. -/
def t0 : Fin cfg0.N := ⟨0, by rw [N_eq]; decide⟩

/-- The first support matrix, features times first weights, as point 0 leaves it in the first scratch. -/
def support0 (c : Dev nD) : Vec F S10000x256 .bf16 := k0_pay1 (featBlk m c t0) (wgt0Blk m c t0)

/-- The 400-row slice of the second support matrix that point `t` (1 ≤ t ≤ 25) forms: the adjacency block times the
    first support matrix in two column halves, plus the bias, the maximum with zero, times the second weights. -/
def hiddenBlk (c : Dev nD) (t : Fin cfg0.N) : Vec F S400x256 .bf16 :=
  k0_pay2 (support0 m c) (View.ld (adjBlk m c t) rectL) (View.ld (adjBlk m c t) rectR) (bias0Blk m c t) (wgt1Blk m c t)

/-- The point that forms row `r` of the second support matrix: rows 400·b .. 400·b + 399 are point b + 1's. -/
def pointOfRow (r : Fin 10000) : Fin cfg0.N := ⟨r.val / 400 + 1, by rw [N_eq]; have := r.isLt; omega⟩

/-- The second support matrix whole: row r is row r mod 400 of the slice its point forms. -/
def support1 (c : Dev nD) : Vec F S10000x256 .bf16 := fun y =>
  hiddenBlk m c (pointOfRow (y 0)) (ix2 (⟨(y 0).val % 400, Nat.mod_lt _ (by decide)⟩ : Fin 400) (y 1))

/-- The 400-row block of the result that point `t` (26 ≤ t ≤ 50) forms: the adjacency block times the second
    support matrix in two column halves, plus the bias. -/
def outBlk (c : Dev nD) (t : Fin cfg0.N) : Vec F S400x256 .f32 :=
  k0_pay3 (support1 m c) (View.ld (adjBlk m c t) rectL) (View.ld (adjBlk m c t) rectR) (bias1Blk m c t)

/-! ## The guards and the slice's rows, in closed form over the grid -/

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ (1 ≤ t.val ∧ t.val ≤ 25) :=
  (by decide +kernel : ∀ t : Fin grid0.N, cond2 (grid0.coords t) ↔ (1 ≤ t.val ∧ t.val ≤ 25))
theorem hcond3 : ∀ t : Fin cfg0.N, cond3 (grid0.coords t) ↔ 26 ≤ t.val :=
  (by decide +kernel : ∀ t : Fin grid0.N, cond3 (grid0.coords t) ↔ 26 ≤ t.val)

/-- At a point of the second phase the slice stored starts at row 400·(t - 1), column 0. -/
theorem hoff : ∀ t : Fin cfg0.N, cond2 (grid0.coords t) → k0_off1 (grid0.coords t) = ![400 * (t.val - 1), 0] :=
  (by decide +kernel : ∀ t : Fin grid0.N, cond2 (grid0.coords t) → k0_off1 (grid0.coords t) = ![400 * (t.val - 1), 0])

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- Before the third phase the output window is idle and its block is not written back. -/
theorem idle6 : ∀ t : Fin cfg0.N, ¬cond3 (grid0.coords t) → cfg0.idle 6 (grid0.coords t) = true := by decide +kernel
theorem noflush6 : ∀ t : Fin cfg0.N, ¬cond3 (grid0.coords t) → (cfg0.win 6).flush t = false := by decide +kernel
/-- In the third phase it is live. -/
theorem live6 : ∀ t : Fin cfg0.N, cond3 (grid0.coords t) → cfg0.idle 6 (grid0.coords t) = false := by decide +kernel

end Cert.Kernel.Body

end
-- ==== Proof.BitsFrame.lean ====
import proofs.«170257_g54683523612746_cont_9to1_m_282_8_alg».proof.Proof.BitsStages
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two scratch buffers hold between points

After point 0 the first scratch holds the first support matrix, for good. The second scratch is filled 400 rows
at a time: after point n (1 ≤ n ≤ 25) its rows below 400·n are those of the second support matrix, the rest is
whatever the buffer held; from point 25 on it is the second support matrix whole. -/

/-- The two scratch operands, whole buffers of the kernel's own. -/
abbrev scM0 : Memref sig .tc .vmem S10000x256 .bf16 := Memref.whole cc0_scratch0
abbrev scM1 : Memref sig .tc .vmem S10000x256 .bf16 := Memref.whole cc0_scratch1

/-- Contents of the second scratch that agree with the second support matrix on the rows points 1..n have formed. -/
def Agree (c : Dev nD) (n : ℕ) (z : Vec F S10000x256 .bf16) : Prop :=
  ∀ y : S10000x256.Idx, (y 0).val < 400 * min n 25 → z y = support1 m c y

theorem Agree.zero (c : Dev nD) (z : Vec F S10000x256 .bf16) : Agree m c 0 z := fun y h => by
  simp only [Nat.zero_min, Nat.mul_zero] at h; exact absurd h (Nat.not_lt_zero _)

/-- Once every row is formed the contents are the second support matrix. -/
theorem Agree.eq_of_le (c : Dev nD) {n : ℕ} (hn : 25 ≤ n) {z : Vec F S10000x256 .bf16} (h : Agree m c n z) : z = support1 m c :=
  funext fun y => h y (by rw [Nat.min_eq_right hn]; exact (y 0).isLt)

theorem Agree.of_eq (c : Dev nD) (n : ℕ) : Agree m c n (support1 m c) := fun _ _ => rfl

/-- The region invariant before position `n`: before the first point the scratch buffers hold anything; afterwards the
    first holds the first support matrix and the second agrees with the second support matrix on the rows formed so far. -/
def Phi (c : Dev nD) : ℕ → sProp 𝕄
  | 0 => Pipeline.ΦA spec0 c
  | n + 1 => iprop((owns (c : Thread nD τ) scM0 fullShare (support0 m c)
      ∗ (∃ z, ⌜Agree m c n z⌝ ∗ owns (c : Thread nD τ) scM1 fullShare z)) ∗ (∃ r, prngReg c r))

/-- The class invariant with the two scratch buffers as memrefs owned at some contents. -/
theorem PhiA_eq (c : Dev nD) :
    (Pipeline.ΦA spec0 c : sProp 𝕄)
      = iprop(((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The proof data -/

/-- Arrays as the region finds them; each input's buffer left at its block; the output's buffer left at the
    result block the point forms; the invariant above; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := Phi m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outBlk m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

theorem Phi_castSucc (c : Dev nD) (t : Fin cfg0.N) : (dats m 0 c).Φ t.castSucc = Phi m c t.val := by
  dsimp only [dats]; simp only [Fin.coe_castSucc]
theorem Phi_succ (c : Dev nD) (t : Fin cfg0.N) : (dats m 0 c).Φ t.succ = Phi m c (t.val + 1) := by
  dsimp only [dats]; simp only [Fin.val_succ]

/-! ## The body obligation, at a generic point -/

/-- Each window's current staging memref at a point, as the pipeline passes it, and its wholeness. -/
abbrev ms0 (t : Fin cfg0.N) : Memref sig .tc .vmem S400x10000 .f32 := win0_0.stage (cfg0.slots t 0)
abbrev hs0 (t : Fin cfg0.N) : (ms0 t).IsWhole := Gen.hstage0_0 ((cfg0.slots t 0).cast Gen.nbuf0_0)
abbrev ms1 (t : Fin cfg0.N) : Memref sig .tc .vmem S10000x256 .f32 := win0_1.stage (cfg0.slots t 1)
abbrev hs1 (t : Fin cfg0.N) : (ms1 t).IsWhole := Gen.hstage0_1 ((cfg0.slots t 1).cast Gen.nbuf0_1)
abbrev ms2 (t : Fin cfg0.N) : Memref sig .tc .vmem S256x256 .bf16 := win0_2.stage (cfg0.slots t 2)
abbrev hs2 (t : Fin cfg0.N) : (ms2 t).IsWhole := Gen.hstage0_2 ((cfg0.slots t 2).cast Gen.nbuf0_2)
abbrev ms3 (t : Fin cfg0.N) : Memref sig .tc .vmem S1x256 .f32 := win0_3.stage (cfg0.slots t 3)
abbrev hs3 (t : Fin cfg0.N) : (ms3 t).IsWhole := Gen.hstage0_3 ((cfg0.slots t 3).cast Gen.nbuf0_3)
abbrev ms4 (t : Fin cfg0.N) : Memref sig .tc .vmem S256x256 .bf16 := win0_4.stage (cfg0.slots t 4)
abbrev hs4 (t : Fin cfg0.N) : (ms4 t).IsWhole := Gen.hstage0_4 ((cfg0.slots t 4).cast Gen.nbuf0_4)
abbrev ms5 (t : Fin cfg0.N) : Memref sig .tc .vmem S1x256 .f32 := win0_5.stage (cfg0.slots t 5)
abbrev hs5 (t : Fin cfg0.N) : (ms5 t).IsWhole := Gen.hstage0_5 ((cfg0.slots t 5).cast Gen.nbuf0_5)
abbrev ms6 (t : Fin cfg0.N) : Memref sig .tc .vmem S400x256 .f32 := win0_6.stage (cfg0.slots t 6)
abbrev hs6 (t : Fin cfg0.N) : (ms6 t).IsWhole := Gen.hstage0_6 ((cfg0.slots t 6).cast Gen.nbuf0_6)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_0 (c : Dev nD) (t : Fin cfg0.N) : (dats m 0 c).leavesExact 0 t = owns (c : Thread nD τ) (ms0 t) fullShare (iblk m c 0 t) := by
  unfold Dat.leavesExact; rw [live0 t, after_0]
theorem leaves_1 (c : Dev nD) (t : Fin cfg0.N) : (dats m 0 c).leavesExact 1 t = owns (c : Thread nD τ) (ms1 t) fullShare (iblk m c 1 t) := by
  unfold Dat.leavesExact; rw [live1 t, after_1]
theorem leaves_2 (c : Dev nD) (t : Fin cfg0.N) : (dats m 0 c).leavesExact 2 t = owns (c : Thread nD τ) (ms2 t) fullShare (iblk m c 2 t) := by
  unfold Dat.leavesExact; rw [live2 t, after_2]
theorem leaves_3 (c : Dev nD) (t : Fin cfg0.N) : (dats m 0 c).leavesExact 3 t = owns (c : Thread nD τ) (ms3 t) fullShare (iblk m c 3 t) := by
  unfold Dat.leavesExact; rw [live3 t, after_3]
theorem leaves_4 (c : Dev nD) (t : Fin cfg0.N) : (dats m 0 c).leavesExact 4 t = owns (c : Thread nD τ) (ms4 t) fullShare (iblk m c 4 t) := by
  unfold Dat.leavesExact; rw [live4 t, after_4]
theorem leaves_5 (c : Dev nD) (t : Fin cfg0.N) : (dats m 0 c).leavesExact 5 t = owns (c : Thread nD τ) (ms5 t) fullShare (iblk m c 5 t) := by
  unfold Dat.leavesExact; rw [live5 t, after_5]
theorem leaves_6_idle (c : Dev nD) (t : Fin cfg0.N) (h3 : ¬cond3 (grid0.coords t)) :
    (dats m 0 c).leavesExact 6 t = iprop(∃ d, owns (c : Thread nD τ) (ms6 t) fullShare ((dats m 0 c).before 6 t d)) :=
  Dat.leavesExact_idle (dats m 0 c) 6 t (idle6 t h3) (noflush6 t h3)
theorem leaves_6_live (c : Dev nD) (t : Fin cfg0.N) (h3 : cond3 (grid0.coords t)) :
    (dats m 0 c).leavesExact 6 t = owns (c : Thread nD τ) (ms6 t) fullShare (outBlk m c t) := by
  unfold Dat.leavesExact; rw [live6 t h3, after_6]

/-- A load through the whole-shape rectangle at zero offsets of a whole memref's contents reads them. -/
theorem readAt_whole {S : Shape} {e : EltTy} (M : Memref sig .tc .vmem S e) (hM : M.IsWhole) (X : S.Idx → Elt F e)
    {off : Fin S.rank → Nat} (h : off = fun _ => 0) (inb : ∀ a, off a + S.size a ≤ S.size a) :
    View.readAt (Elt F) M.view (Rect.unit off S.size inb).toLoadRect (hM.unread X) = X := by
  rw [View.readAt_eq_ld, hM.read_unread, View.ld_unit_zero h]

/-- A load through any rectangle of a whole memref's contents reads them at the rectangle's indices. -/
theorem readAt_ld {S : Shape} {e : EltTy} (M : Memref sig .tc .vmem S e) (hM : M.IsWhole) (X : S.Idx → Elt F e) (r : Rect S) :
    View.readAt (Elt F) M.view r.toLoadRect (hM.unread X) = View.ld X r := by
  rw [View.readAt_eq_ld, hM.read_unread]

theorem z2 : (![0, 0] : Fin 2 → Nat) = fun _ => 0 := by funext a; fin_cases a <;> rfl

/-- One store through the whole-shape rectangle, over anything, reads back its payload. -/
theorem read_writes_whole {S : Shape} {e : EltTy} (v : View sig .tc .vmem S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩), View.canon_unit_zero h]

/-- The stored values are functions: equal operands and an equal index give equal entries. -/
theorem pay1_congr {x x' : Vec F S10000x256 .f32} {w w' : Vec F S256x256 .bf16} (ex : x = x') (ew : w = w') :
    k0_pay1 x w = k0_pay1 x' w' := by subst ex ew; rfl
theorem pay2_congr {s s' : Vec F S10000x256 .bf16} {aL aL' aR aR' : Vec F S400x5000 .f32} {b b' : Vec F S1x256 .f32}
    {w w' : Vec F S256x256 .bf16} {i i' : S400x256.Idx} (es : s = s') (eL : aL = aL') (eR : aR = aR') (eb : b = b') (ew : w = w') (ei : i = i') :
    k0_pay2 s aL aR b w i = k0_pay2 s' aL' aR' b' w' i' := by subst es eL eR eb ew ei; rfl
theorem pay3_congr {s s' : Vec F S10000x256 .bf16} {aL aL' aR aR' : Vec F S400x5000 .f32} {b b' : Vec F S1x256 .f32}
    (es : s = s') (eL : aL = aL') (eR : aR = aR') (eb : b = b') :
    k0_pay3 s aL aR b = k0_pay3 s' aL' aR' b' := by subst es eL eR eb; rfl

/-- What point 0 leaves in the first scratch is the first support matrix. -/
theorem support_left (c : Dev nD) (t : Fin cfg0.N) (ht : t = t0) (h1 : cond1 (grid0.coords t)) (h2 : ¬cond2 (grid0.coords t))
    (h3 : ¬cond3 (grid0.coords t)) (f8 : scM0.view.ty.Contents (Elt F)) :
    scM0.view.read (Elt F) (scM0.view.writes (Elt F) f8
      (runSupport c (grid0.coords t) (ms0 t) (hs0 t) (ms1 t) (hs1 t) (ms2 t) (hs2 t) (ms3 t) (hs3 t) (ms4 t) (hs4 t) (ms5 t) (hs5 t) (ms6 t) (hs6 t)
      scM0 (Memref.isWhole_whole _) scM1 (Memref.isWhole_whole _) h1 h2 h3 (iblk m c 1 t) (iblk m c 2 t)).1) = support0 m c := by
  subst ht
  unfold runSupport; dsimp only
  exact (read_writes_whole _ _ z2 _ _).trans
    (pay1_congr (readAt_whole (ms1 t0) (hs1 t0) (iblk m c 1 t0) z2 _) (readAt_whole (ms2 t0) (hs2 t0) (iblk m c 2 t0) z2 _))

/-- What a point of the third phase leaves in the output window is the result block it forms. -/
theorem out_left (c : Dev nD) (t : Fin cfg0.N) (h1 : ¬cond1 (grid0.coords t)) (h2 : ¬cond2 (grid0.coords t))
    (h3 : cond3 (grid0.coords t)) (f7 : (ms6 t).view.ty.Contents (Elt F)) :
    (ms6 t).view.read (Elt F) ((ms6 t).view.writes (Elt F) f7
      (runOut c (grid0.coords t) (ms0 t) (hs0 t) (ms1 t) (hs1 t) (ms2 t) (hs2 t) (ms3 t) (hs3 t) (ms4 t) (hs4 t) (ms5 t) (hs5 t) (ms6 t) (hs6 t)
      scM0 (Memref.isWhole_whole _) scM1 (Memref.isWhole_whole _) h1 h2 h3 (support1 m c) (iblk m c 0 t) (iblk m c 5 t)).1) = outBlk m c t := by
  unfold runOut; dsimp only
  exact (read_writes_whole _ _ z2 _ _).trans
    (pay3_congr (readAt_whole scM1 (Memref.isWhole_whole _) (support1 m c) z2 _) (readAt_ld (ms0 t) (hs0 t) (iblk m c 0 t) _)
      (readAt_ld (ms0 t) (hs0 t) (iblk m c 0 t) _) (readAt_whole (ms5 t) (hs5 t) (iblk m c 5 t) z2 _))

/-- A point of the second phase adds its 400 rows to those the second scratch agrees on: an entry of the new rows is
    the slice's entry at the row's offset within the slice; an entry of the earlier rows is untouched. -/
theorem hidden_left (c : Dev nD) (t : Fin cfg0.N) (n : ℕ) (hn : t.val = n + 1) (hp : t.val ≤ 25) (h1 : ¬cond1 (grid0.coords t))
    (h2 : cond2 (grid0.coords t)) (h3 : ¬cond3 (grid0.coords t)) (z : Vec F S10000x256 .bf16) (hz : Agree m c n z) :
    Agree m c (n + 1) (scM1.view.read (Elt F) (scM1.view.writes (Elt F) ((Memref.isWhole_whole cc0_scratch1).unread z)
      (runHidden c (grid0.coords t) (ms0 t) (hs0 t) (ms1 t) (hs1 t) (ms2 t) (hs2 t) (ms3 t) (hs3 t) (ms4 t) (hs4 t) (ms5 t) (hs5 t) (ms6 t) (hs6 t)
      scM0 (Memref.isWhole_whole _) scM1 (Memref.isWhole_whole _) h1 h2 h3 (support0 m c) (iblk m c 0 t) (iblk m c 3 t) (iblk m c 4 t) z).1)) := by
  intro y hy
  have hmin : min (n + 1) 25 = n + 1 := Nat.min_eq_left (by omega)
  rw [hmin] at hy
  unfold runHidden; dsimp only
  have ho : k0_off1 (grid0.coords t) = ![400 * n, 0] := by rw [hoff t h2, hn]; rfl
  refine (View.read_writes_cons_rows (d := ![10000, 256]) (View.whole cc0_scratch1) _ (off := k0_off1 (grid0.coords t)) (size := ![400, 256])
    (o := 400 * n) (W := 400) _ _ [] y ho rfl rfl).trans ?_
  split
  · next hin =>
    have hpt : pointOfRow (y 0) = t := Fin.ext (by
      show (y 0).val / 400 + 1 = t.val
      rw [hn]; have := hin.1; have := hin.2; omega)
    unfold support1
    rw [hpt]
    unfold hiddenBlk
    refine pay2_congr (readAt_whole scM0 (Memref.isWhole_whole _) (support0 m c) z2 _) (readAt_ld (ms0 t) (hs0 t) (iblk m c 0 t) _)
      (readAt_ld (ms0 t) (hs0 t) (iblk m c 0 t) _) (readAt_whole (ms3 t) (hs3 t) (iblk m c 3 t) z2 _)
      (readAt_whole (ms4 t) (hs4 t) (iblk m c 4 t) z2 _) ?_
    funext a
    apply Fin.ext
    match a with
    | ⟨0, _⟩ =>
      show (y 0).val - 400 * n = (y 0).val % 400
      have := hin.1; have := hin.2; omega
    | ⟨1, _⟩ =>
      show (y 1).val - 0 = (y 1).val
      omega
  · next hout =>
    rw [View.writes_nil, (Memref.isWhole_whole cc0_scratch1).read_unread]
    refine hz y ?_
    have : (y 0).val < 400 * n := by omega
    exact lt_of_lt_of_le this (Nat.mul_le_mul_left _ (le_min (le_refl _) (by omega)))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [Phi_castSucc, Phi_succ, leaves_0, leaves_1, leaves_2, leaves_3, leaves_4, leaves_5]
  have hN : t.val < 51 := lt_of_lt_of_eq t.isLt N_eq
  by_cases hz : t.val = 0
  · -- point 0: the first support matrix is formed
    have h1 : cond1 (grid0.coords t) := (hcond1 t).mpr hz
    have h2 : ¬cond2 (grid0.coords t) := fun h => by have := (hcond2 t).mp h; omega
    have h3 : ¬cond3 (grid0.coords t) := fun h => by have := (hcond3 t).mp h; omega
    have ht : t = t0 := Fin.ext hz
    rw [leaves_6_idle m c t h3, hz, show Phi m c 0 = Pipeline.ΦA spec0 c from rfl, PhiA_eq,
      show Phi m c (0 + 1) = iprop((owns (c : Thread nD τ) scM0 fullShare (support0 m c)
        ∗ (∃ z, ⌜Agree m c 0 z⌝ ∗ owns (c : Thread nD τ) scM1 fullShare z)) ∗ (∃ r, prngReg c r)) from rfl]
    iintro ⟨⟨⟨HS0, ⟨%z1, HS1⟩⟩, Hg⟩, Ho, ⟨%d0, H0⟩, ⟨%d1, H1⟩, ⟨%d2, H2⟩, ⟨%d3, H3⟩, ⟨%d4, H4⟩, ⟨%d5, H5⟩, H6⟩
    iapply ((runSupport c (grid0.coords t) (ms0 t) (hs0 t) (ms1 t) (hs1 t) (ms2 t) (hs2 t) (ms3 t) (hs3 t) (ms4 t) (hs4 t) (ms5 t) (hs5 t) (ms6 t) (hs6 t)
      scM0 (Memref.isWhole_whole _) scM1 (Memref.isWhole_whole _) h1 h2 h3 (iblk m c 1 t) (iblk m c 2 t)).2 Set.univ _)
    isplitl [H1]; · iexact H1
    isplitl [H2]; · iexact H2
    isplitl [HS0]; · iexact HS0
    iintro ⟨H1, H2, ⟨%f8, HS0⟩⟩
    isplitl [HS0 HS1 Hg]
    · isplitl [HS0 HS1]
      · isplitl [HS0]
        · unfold owns; iexists _; isplitr
          swap; · iexact HS0
          ipureintro
          exact support_left m c t ht h1 h2 h3 f8
        · iexists z1; isplitr; · ipureintro; exact Agree.zero m c z1
          iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · obtain ⟨n, hn⟩ : ∃ n, t.val = n + 1 := ⟨t.val - 1, by omega⟩
    rw [hn, show Phi m c (n + 1) = iprop((owns (c : Thread nD τ) scM0 fullShare (support0 m c)
        ∗ (∃ z, ⌜Agree m c n z⌝ ∗ owns (c : Thread nD τ) scM1 fullShare z)) ∗ (∃ r, prngReg c r)) from rfl,
      show Phi m c (n + 1 + 1) = iprop((owns (c : Thread nD τ) scM0 fullShare (support0 m c)
        ∗ (∃ z, ⌜Agree m c (n + 1) z⌝ ∗ owns (c : Thread nD τ) scM1 fullShare z)) ∗ (∃ r, prngReg c r)) from rfl]
    have h1 : ¬cond1 (grid0.coords t) := fun h => hz ((hcond1 t).mp h)
    by_cases hp : t.val ≤ 25
    · -- points 1..25: one slice of the second support matrix is formed
      have h2 : cond2 (grid0.coords t) := (hcond2 t).mpr ⟨by omega, hp⟩
      have h3 : ¬cond3 (grid0.coords t) := fun h => by have := (hcond3 t).mp h; omega
      rw [leaves_6_idle m c t h3]
      iintro ⟨⟨⟨HS0, ⟨%z, %hz1, HS1⟩⟩, Hg⟩, Ho, ⟨%d0, H0⟩, ⟨%d1, H1⟩, ⟨%d2, H2⟩, ⟨%d3, H3⟩, ⟨%d4, H4⟩, ⟨%d5, H5⟩, H6⟩
      iapply ((runHidden c (grid0.coords t) (ms0 t) (hs0 t) (ms1 t) (hs1 t) (ms2 t) (hs2 t) (ms3 t) (hs3 t) (ms4 t) (hs4 t) (ms5 t) (hs5 t) (ms6 t) (hs6 t)
      scM0 (Memref.isWhole_whole _) scM1 (Memref.isWhole_whole _) h1 h2 h3 (support0 m c) (iblk m c 0 t) (iblk m c 3 t) (iblk m c 4 t) z).2 Set.univ _)
      isplitl [HS0]; · iexact HS0
      isplitl [H0]; · iexact H0
      isplitl [H3]; · iexact H3
      isplitl [H4]; · iexact H4
      isplitl [HS1]; · iexact HS1
      iintro ⟨HS0, H0, H3, H4, HS1⟩
      isplitl [HS0 HS1 Hg]
      · isplitl [HS0 HS1]
        · isplitl [HS0]; · iexact HS0
          iexists _; isplitr
          swap
          · unfold owns; iexists _; isplitr
            swap; · iexact HS1
            ipureintro; rfl
          ipureintro
          exact hidden_left m c t n hn hp h1 h2 h3 z hz1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- points 26..50: one block of the result is formed
      have h2 : ¬cond2 (grid0.coords t) := fun h => by have := (hcond2 t).mp h; omega
      have h3 : cond3 (grid0.coords t) := (hcond3 t).mpr (by omega)
      rw [leaves_6_live m c t h3]
      iintro ⟨⟨⟨HS0, ⟨%z, %hz1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      obtain rfl : z = support1 m c := Agree.eq_of_le m c (by omega) hz1
      iapply ((runOut c (grid0.coords t) (ms0 t) (hs0 t) (ms1 t) (hs1 t) (ms2 t) (hs2 t) (ms3 t) (hs3 t) (ms4 t) (hs4 t) (ms5 t) (hs5 t) (ms6 t) (hs6 t)
      scM0 (Memref.isWhole_whole _) scM1 (Memref.isWhole_whole _) h1 h2 h3 (support1 m c) (iblk m c 0 t) (iblk m c 5 t)).2 Set.univ _)
      isplitl [HS1]; · iexact HS1
      isplitl [H0]; · iexact H0
      isplitl [H5]; · iexact H5
      isplitl [H6]; · iexists _; iexact H6
      iintro ⟨HS1, H0, H5, ⟨%f7, H6⟩⟩
      isplitl [HS0 HS1 Hg]
      · isplitl [HS0 HS1]
        · isplitl [HS0]; · iexact HS0
          iexists _; isplitr; · ipureintro; exact Agree.of_eq m c (n + 1)
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      exact out_left m c t h1 h2 h3 f7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 from rfl]
  exact Idealize.SL.BI.Entails.refl _

/-- After the last point the invariant gives the class's back: what the scratch buffers hold is forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl, Fin.val_last, N_eq,
    show Phi m c 51 = iprop((owns (c : Thread nD τ) scM0 fullShare (support0 m c)
        ∗ (∃ z, ⌜Agree m c 50 z⌝ ∗ owns (c : Thread nD τ) scM1 fullShare z)) ∗ (∃ r, prngReg c r)) from rfl, PhiA_eq]
  iintro ⟨⟨HS0, ⟨%z, -, HS1⟩⟩, Hg⟩
  isplitl [HS0 HS1]
  · isplitl [HS0]
    · iexists _; iexact HS0
    · iexists _; iexact HS1
  iexact Hg

/-! ## The run and the frame -/

set_option backward.isDefEq.respectTransparency.types false in
/-- Every weakly fair execution of @main terminates, and every final state has each array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, nothing faults, and its argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.IdealRuns.lean ====
import proofs.«170257_g54683523612746_cont_9to1_m_282_8_alg».proof.Proof.Gen.KernelIdeal.Frame
import proofs.«170257_g54683523612746_cont_9to1_m_282_8_alg».proof.Proof.Gen.KernelIdeal.Skeleton
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! The three phases of the fused layer, each as a run of the body on whole memrefs.

The grid has 51 points. Point 0 forms the first support matrix X·W0 and keeps it in the first scratch; points
1 to 25 each form one 400-row slice of relu(A·support0 + b0)·W1 and keep it in the second scratch at its rows;
points 26 to 50 each form one 400-row block of A·support1 + b1 in the output window. -/

/-- The guard of the first phase: the grid coordinate is 0. -/
abbrev cond1 (i : grid0.Coords) : Prop :=
  Scalar.cmpi .ne (Scalar.extui (Scalar.cmpi .eq (BitVec.ofNat 32 (i 0).val) 0#32)) 0#32 = 1#1
/-- The guard of the second phase: the coordinate lies in 1..25. -/
abbrev cond2 (i : grid0.Coords) : Prop := k0_cond2 i = 1#1
/-- The guard of the third phase: the coordinate is at least 26. -/
abbrev cond3 (i : grid0.Coords) : Prop := k0_cond3 i = 1#1

set_option maxHeartbeats 1000000 in
/-- Phase one: from the features and the first weights the body stores their product, rounded, over the whole first scratch. -/
noncomputable def runSupport (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (arg9 : Memref sig .tc .vmem S10000x256 .bf16) (harg9 : arg9.IsWhole)
    (h1 : cond1 i) (h2 : ¬cond2 i) (h3 : ¬cond3 i)
    (x : Vec F S10000x256 .f32) (w : Vec F S256x256 .bf16) :
    { L8 : List (View.Piece (Elt F) S10000x256 .bf16) //
      ∀ (E : Set ℕ) (K : PUnit → sProp 𝕄),
        iprop(owns (c : Thread nD τ) arg2 fullShare x ∗ owns (c : Thread nD τ) arg3 fullShare w ∗ (∃ d, owns (c : Thread nD τ) arg8 fullShare d)
            ∗ (iprop(owns (c : Thread nD τ) arg2 fullShare x ∗ owns (c : Thread nD τ) arg3 fullShare w
                ∗ (∃ f, arg8.view.loc (c : Thread nD τ) ↦[arg8.view.set]{fullShare} arg8.view.writes (Elt F) f L8)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨?_, fun E K => ?run⟩
  case run =>
    simp only [cc0__fused_kernel_eq_skeleton]; unfold cc0__fused_kernel_skel
    unfold owns
    iintro ⟨⟨%f2, %hf2, H2⟩, ⟨%f3, %hf3, H3⟩, ⟨%d8, %f8, -, H8⟩, Hk⟩
    obtain rfl := harg2.eq_unread hf2; obtain rfl := harg3.eq_unread hf3
    sl_exec (disch := first | exact h1 | exact h2 | exact h3)
    sl_step
    iapply Hk
    isplitl [H2]
    · iexists _; isplitr; · ipureintro; exact harg2.read_unread _
      iexact H2
    isplitl [H3]
    · iexists _; isplitr; · ipureintro; exact harg3.read_unread _
      iexact H3
    iexists _; iexact H8

set_option maxHeartbeats 1000000 in
/-- Phase two: from the first scratch, one adjacency block, the first bias and the second weights the body stores one
    slice of the hidden product, rounded, over 400 rows of the second scratch. -/
noncomputable def runHidden (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (arg9 : Memref sig .tc .vmem S10000x256 .bf16) (harg9 : arg9.IsWhole)
    (h1 : ¬cond1 i) (h2 : cond2 i) (h3 : ¬cond3 i)
    (s0 : Vec F S10000x256 .bf16) (a : Vec F S400x10000 .f32) (b : Vec F S1x256 .f32) (w : Vec F S256x256 .bf16) (z : Vec F S10000x256 .bf16) :
    { L9 : List (View.Piece (Elt F) S10000x256 .bf16) //
      ∀ (E : Set ℕ) (K : PUnit → sProp 𝕄),
        iprop(owns (c : Thread nD τ) arg8 fullShare s0 ∗ owns (c : Thread nD τ) arg1 fullShare a ∗ owns (c : Thread nD τ) arg4 fullShare b
            ∗ owns (c : Thread nD τ) arg5 fullShare w ∗ owns (c : Thread nD τ) arg9 fullShare z
            ∗ (iprop(owns (c : Thread nD τ) arg8 fullShare s0 ∗ owns (c : Thread nD τ) arg1 fullShare a ∗ owns (c : Thread nD τ) arg4 fullShare b
                ∗ owns (c : Thread nD τ) arg5 fullShare w
                ∗ (arg9.view.loc (c : Thread nD τ) ↦[arg9.view.set]{fullShare} arg9.view.writes (Elt F) (harg9.unread z) L9)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨?_, fun E K => ?run⟩
  case run =>
    simp only [cc0__fused_kernel_eq_skeleton]; unfold cc0__fused_kernel_skel
    unfold owns
    iintro ⟨⟨%f8, %hf8, H8⟩, ⟨%f1, %hf1, H1⟩, ⟨%f4, %hf4, H4⟩, ⟨%f5, %hf5, H5⟩, ⟨%f9, %hf9, H9⟩, Hk⟩
    obtain rfl := harg8.eq_unread hf8; obtain rfl := harg1.eq_unread hf1; obtain rfl := harg4.eq_unread hf4
    obtain rfl := harg5.eq_unread hf5; obtain rfl := harg9.eq_unread hf9
    sl_exec (disch := first | exact h1 | exact h2 | exact h3)
    sl_step
    iapply Hk
    isplitl [H8]
    · iexists _; isplitr; · ipureintro; exact harg8.read_unread _
      iexact H8
    isplitl [H1]
    · iexists _; isplitr; · ipureintro; exact harg1.read_unread _
      iexact H1
    isplitl [H4]
    · iexists _; isplitr; · ipureintro; exact harg4.read_unread _
      iexact H4
    isplitl [H5]
    · iexists _; isplitr; · ipureintro; exact harg5.read_unread _
      iexact H5
    iexact H9

set_option maxHeartbeats 1000000 in
/-- Phase three: from the second scratch, one adjacency block and the second bias the body stores one block of the
    result over the whole output window. -/
noncomputable def runOut (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (arg9 : Memref sig .tc .vmem S10000x256 .bf16) (harg9 : arg9.IsWhole)
    (h1 : ¬cond1 i) (h2 : ¬cond2 i) (h3 : cond3 i)
    (s1 : Vec F S10000x256 .bf16) (a : Vec F S400x10000 .f32) (b : Vec F S1x256 .f32) :
    { L7 : List (View.Piece (Elt F) S400x256 .f32) //
      ∀ (E : Set ℕ) (K : PUnit → sProp 𝕄),
        iprop(owns (c : Thread nD τ) arg9 fullShare s1 ∗ owns (c : Thread nD τ) arg1 fullShare a ∗ owns (c : Thread nD τ) arg6 fullShare b
            ∗ (∃ d, owns (c : Thread nD τ) arg7 fullShare d)
            ∗ (iprop(owns (c : Thread nD τ) arg9 fullShare s1 ∗ owns (c : Thread nD τ) arg1 fullShare a ∗ owns (c : Thread nD τ) arg6 fullShare b
                ∗ (∃ f, arg7.view.loc (c : Thread nD τ) ↦[arg7.view.set]{fullShare} arg7.view.writes (Elt F) f L7)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨?_, fun E K => ?run⟩
  case run =>
    simp only [cc0__fused_kernel_eq_skeleton]; unfold cc0__fused_kernel_skel
    unfold owns
    iintro ⟨⟨%f9, %hf9, H9⟩, ⟨%f1, %hf1, H1⟩, ⟨%f6, %hf6, H6⟩, ⟨%d7, %f7, -, H7⟩, Hk⟩
    obtain rfl := harg9.eq_unread hf9; obtain rfl := harg1.eq_unread hf1; obtain rfl := harg6.eq_unread hf6
    sl_exec (disch := first | exact h1 | exact h2 | exact h3)
    sl_step
    iapply Hk
    isplitl [H9]
    · iexists _; isplitr; · ipureintro; exact harg9.read_unread _
      iexact H9
    isplitl [H1]
    · iexists _; isplitr; · ipureintro; exact harg1.read_unread _
      iexact H1
    isplitl [H6]
    · iexists _; isplitr; · ipureintro; exact harg6.read_unread _
      iexact H6
    iexists _; iexact H7

end Cert.KernelIdeal.Body

end
-- ==== Proof.IdealStages.lean ====
import proofs.«170257_g54683523612746_cont_9to1_m_282_8_alg».proof.Proof.IdealRuns
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem
open Facts₀ Facts

variable {F : FTy → Type} [FloatOps F]

variable (m : (ℓ : Loc nD τ sig) → Buf (Elt F) ℓ)

/-! ## What the body computes, phase by phase, as functions of the windows' blocks

The blocks are read off the arrays as the region finds them. Window 0 is one 400-row block of the adjacency
(block `t - 1` at points 1..25, block `t - 26` at points 26..50); windows 1 to 5 are whole arrays: the
features, the first weights, the first bias as one row, the second weights, the second bias as one row. -/

/-- The point count, as a numeral. -/
theorem N_eq : cfg0.N = 51 := N_0

/-- Window 0's block at a point: 400 rows of the adjacency. -/
abbrev adjBlk (c : Dev nD) (t : Fin cfg0.N) : Vec F S400x10000 .f32 := iblk m c 0 t
/-- Window 1's block: the features. -/
abbrev featBlk (c : Dev nD) (t : Fin cfg0.N) : Vec F S10000x256 .f32 := iblk m c 1 t
/-- Window 2's block: the first layer's weights. -/
abbrev wgt0Blk (c : Dev nD) (t : Fin cfg0.N) : Vec F S256x256 .bf16 := iblk m c 2 t
/-- Window 3's block: the first layer's bias, one row. -/
abbrev bias0Blk (c : Dev nD) (t : Fin cfg0.N) : Vec F S1x256 .f32 := iblk m c 3 t
/-- Window 4's block: the second layer's weights. -/
abbrev wgt1Blk (c : Dev nD) (t : Fin cfg0.N) : Vec F S256x256 .bf16 := iblk m c 4 t
/-- Window 5's block: the second layer's bias, one row. -/
abbrev bias1Blk (c : Dev nD) (t : Fin cfg0.N) : Vec F S1x256 .f32 := iblk m c 5 t

/-- Columns 0..4999 of an adjacency block. -/
abbrev rectL : Rect S400x10000 := Rect.unit (s := S400x10000) ![0, 0] S400x5000.size Gen.inb_S400x10000_S400x5000_0_0
/-- Columns 5000..9999 of an adjacency block. -/
abbrev rectR : Rect S400x10000 := Rect.unit (s := S400x10000) ![0, 5000] S400x5000.size Gen.inb_S400x10000_S400x5000_0_5000

/-- The first grid point. -/
def t0 : Fin cfg0.N := ⟨0, by rw [N_eq]; decide⟩

/-- The first support matrix, features times first weights, as point 0 leaves it in the first scratch. -/
def support0 (c : Dev nD) : Vec F S10000x256 .bf16 := k0_pay1 (featBlk m c t0) (wgt0Blk m c t0)

/-- The 400-row slice of the second support matrix that point `t` (1 ≤ t ≤ 25) forms: the adjacency block times the
    first support matrix in two column halves, plus the bias, the maximum with zero, times the second weights. -/
def hiddenBlk (c : Dev nD) (t : Fin cfg0.N) : Vec F S400x256 .bf16 :=
  k0_pay2 (support0 m c) (View.ld (adjBlk m c t) rectL) (View.ld (adjBlk m c t) rectR) (bias0Blk m c t) (wgt1Blk m c t)

/-- The point that forms row `r` of the second support matrix: rows 400·b .. 400·b + 399 are point b + 1's. -/
def pointOfRow (r : Fin 10000) : Fin cfg0.N := ⟨r.val / 400 + 1, by rw [N_eq]; have := r.isLt; omega⟩

/-- The second support matrix whole: row r is row r mod 400 of the slice its point forms. -/
def support1 (c : Dev nD) : Vec F S10000x256 .bf16 := fun y =>
  hiddenBlk m c (pointOfRow (y 0)) (ix2 (⟨(y 0).val % 400, Nat.mod_lt _ (by decide)⟩ : Fin 400) (y 1))

/-- The 400-row block of the result that point `t` (26 ≤ t ≤ 50) forms: the adjacency block times the second
    support matrix in two column halves, plus the bias. -/
def outBlk (c : Dev nD) (t : Fin cfg0.N) : Vec F S400x256 .f32 :=
  k0_pay3 (support1 m c) (View.ld (adjBlk m c t) rectL) (View.ld (adjBlk m c t) rectR) (bias1Blk m c t)

/-! ## The guards and the slice's rows, in closed form over the grid -/

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ (1 ≤ t.val ∧ t.val ≤ 25) :=
  (by decide +kernel : ∀ t : Fin grid0.N, cond2 (grid0.coords t) ↔ (1 ≤ t.val ∧ t.val ≤ 25))
theorem hcond3 : ∀ t : Fin cfg0.N, cond3 (grid0.coords t) ↔ 26 ≤ t.val :=
  (by decide +kernel : ∀ t : Fin grid0.N, cond3 (grid0.coords t) ↔ 26 ≤ t.val)

/-- At a point of the second phase the slice stored starts at row 400·(t - 1), column 0. -/
theorem hoff : ∀ t : Fin cfg0.N, cond2 (grid0.coords t) → k0_off1 (grid0.coords t) = ![400 * (t.val - 1), 0] :=
  (by decide +kernel : ∀ t : Fin grid0.N, cond2 (grid0.coords t) → k0_off1 (grid0.coords t) = ![400 * (t.val - 1), 0])

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- Before the third phase the output window is idle and its block is not written back. -/
theorem idle6 : ∀ t : Fin cfg0.N, ¬cond3 (grid0.coords t) → cfg0.idle 6 (grid0.coords t) = true := by decide +kernel
theorem noflush6 : ∀ t : Fin cfg0.N, ¬cond3 (grid0.coords t) → (cfg0.win 6).flush t = false := by decide +kernel
/-- In the third phase it is live. -/
theorem live6 : ∀ t : Fin cfg0.N, cond3 (grid0.coords t) → cfg0.idle 6 (grid0.coords t) = false := by decide +kernel

end Cert.KernelIdeal.Body

end
-- ==== Proof.IdealFrame.lean ====
import proofs.«170257_g54683523612746_cont_9to1_m_282_8_alg».proof.Proof.IdealStages
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two scratch buffers hold between points

After point 0 the first scratch holds the first support matrix, for good. The second scratch is filled 400 rows
at a time: after point n (1 ≤ n ≤ 25) its rows below 400·n are those of the second support matrix, the rest is
whatever the buffer held; from point 25 on it is the second support matrix whole. -/

/-- The two scratch operands, whole buffers of the kernel's own. -/
abbrev scM0 : Memref sig .tc .vmem S10000x256 .bf16 := Memref.whole cc0_scratch0
abbrev scM1 : Memref sig .tc .vmem S10000x256 .bf16 := Memref.whole cc0_scratch1

/-- Contents of the second scratch that agree with the second support matrix on the rows points 1..n have formed. -/
def Agree (c : Dev nD) (n : ℕ) (z : Vec F S10000x256 .bf16) : Prop :=
  ∀ y : S10000x256.Idx, (y 0).val < 400 * min n 25 → z y = support1 m c y

theorem Agree.zero (c : Dev nD) (z : Vec F S10000x256 .bf16) : Agree m c 0 z := fun y h => by
  simp only [Nat.zero_min, Nat.mul_zero] at h; exact absurd h (Nat.not_lt_zero _)

/-- Once every row is formed the contents are the second support matrix. -/
theorem Agree.eq_of_le (c : Dev nD) {n : ℕ} (hn : 25 ≤ n) {z : Vec F S10000x256 .bf16} (h : Agree m c n z) : z = support1 m c :=
  funext fun y => h y (by rw [Nat.min_eq_right hn]; exact (y 0).isLt)

theorem Agree.of_eq (c : Dev nD) (n : ℕ) : Agree m c n (support1 m c) := fun _ _ => rfl

/-- The region invariant before position `n`: before the first point the scratch buffers hold anything; afterwards the
    first holds the first support matrix and the second agrees with the second support matrix on the rows formed so far. -/
def Phi (c : Dev nD) : ℕ → sProp 𝕄
  | 0 => Pipeline.ΦA spec0 c
  | n + 1 => iprop((owns (c : Thread nD τ) scM0 fullShare (support0 m c)
      ∗ (∃ z, ⌜Agree m c n z⌝ ∗ owns (c : Thread nD τ) scM1 fullShare z)) ∗ (∃ r, prngReg c r))

/-- The class invariant with the two scratch buffers as memrefs owned at some contents. -/
theorem PhiA_eq (c : Dev nD) :
    (Pipeline.ΦA spec0 c : sProp 𝕄)
      = iprop(((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The proof data -/

/-- Arrays as the region finds them; each input's buffer left at its block; the output's buffer left at the
    result block the point forms; the invariant above; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := Phi m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outBlk m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

theorem Phi_castSucc (c : Dev nD) (t : Fin cfg0.N) : (dats m 0 c).Φ t.castSucc = Phi m c t.val := by
  dsimp only [dats]; simp only [Fin.coe_castSucc]
theorem Phi_succ (c : Dev nD) (t : Fin cfg0.N) : (dats m 0 c).Φ t.succ = Phi m c (t.val + 1) := by
  dsimp only [dats]; simp only [Fin.val_succ]

/-! ## The body obligation, at a generic point -/

/-- Each window's current staging memref at a point, as the pipeline passes it, and its wholeness. -/
abbrev ms0 (t : Fin cfg0.N) : Memref sig .tc .vmem S400x10000 .f32 := win0_0.stage (cfg0.slots t 0)
abbrev hs0 (t : Fin cfg0.N) : (ms0 t).IsWhole := Gen.hstage0_0 ((cfg0.slots t 0).cast Gen.nbuf0_0)
abbrev ms1 (t : Fin cfg0.N) : Memref sig .tc .vmem S10000x256 .f32 := win0_1.stage (cfg0.slots t 1)
abbrev hs1 (t : Fin cfg0.N) : (ms1 t).IsWhole := Gen.hstage0_1 ((cfg0.slots t 1).cast Gen.nbuf0_1)
abbrev ms2 (t : Fin cfg0.N) : Memref sig .tc .vmem S256x256 .bf16 := win0_2.stage (cfg0.slots t 2)
abbrev hs2 (t : Fin cfg0.N) : (ms2 t).IsWhole := Gen.hstage0_2 ((cfg0.slots t 2).cast Gen.nbuf0_2)
abbrev ms3 (t : Fin cfg0.N) : Memref sig .tc .vmem S1x256 .f32 := win0_3.stage (cfg0.slots t 3)
abbrev hs3 (t : Fin cfg0.N) : (ms3 t).IsWhole := Gen.hstage0_3 ((cfg0.slots t 3).cast Gen.nbuf0_3)
abbrev ms4 (t : Fin cfg0.N) : Memref sig .tc .vmem S256x256 .bf16 := win0_4.stage (cfg0.slots t 4)
abbrev hs4 (t : Fin cfg0.N) : (ms4 t).IsWhole := Gen.hstage0_4 ((cfg0.slots t 4).cast Gen.nbuf0_4)
abbrev ms5 (t : Fin cfg0.N) : Memref sig .tc .vmem S1x256 .f32 := win0_5.stage (cfg0.slots t 5)
abbrev hs5 (t : Fin cfg0.N) : (ms5 t).IsWhole := Gen.hstage0_5 ((cfg0.slots t 5).cast Gen.nbuf0_5)
abbrev ms6 (t : Fin cfg0.N) : Memref sig .tc .vmem S400x256 .f32 := win0_6.stage (cfg0.slots t 6)
abbrev hs6 (t : Fin cfg0.N) : (ms6 t).IsWhole := Gen.hstage0_6 ((cfg0.slots t 6).cast Gen.nbuf0_6)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_0 (c : Dev nD) (t : Fin cfg0.N) : (dats m 0 c).leavesExact 0 t = owns (c : Thread nD τ) (ms0 t) fullShare (iblk m c 0 t) := by
  unfold Dat.leavesExact; rw [live0 t, after_0]
theorem leaves_1 (c : Dev nD) (t : Fin cfg0.N) : (dats m 0 c).leavesExact 1 t = owns (c : Thread nD τ) (ms1 t) fullShare (iblk m c 1 t) := by
  unfold Dat.leavesExact; rw [live1 t, after_1]
theorem leaves_2 (c : Dev nD) (t : Fin cfg0.N) : (dats m 0 c).leavesExact 2 t = owns (c : Thread nD τ) (ms2 t) fullShare (iblk m c 2 t) := by
  unfold Dat.leavesExact; rw [live2 t, after_2]
theorem leaves_3 (c : Dev nD) (t : Fin cfg0.N) : (dats m 0 c).leavesExact 3 t = owns (c : Thread nD τ) (ms3 t) fullShare (iblk m c 3 t) := by
  unfold Dat.leavesExact; rw [live3 t, after_3]
theorem leaves_4 (c : Dev nD) (t : Fin cfg0.N) : (dats m 0 c).leavesExact 4 t = owns (c : Thread nD τ) (ms4 t) fullShare (iblk m c 4 t) := by
  unfold Dat.leavesExact; rw [live4 t, after_4]
theorem leaves_5 (c : Dev nD) (t : Fin cfg0.N) : (dats m 0 c).leavesExact 5 t = owns (c : Thread nD τ) (ms5 t) fullShare (iblk m c 5 t) := by
  unfold Dat.leavesExact; rw [live5 t, after_5]
theorem leaves_6_idle (c : Dev nD) (t : Fin cfg0.N) (h3 : ¬cond3 (grid0.coords t)) :
    (dats m 0 c).leavesExact 6 t = iprop(∃ d, owns (c : Thread nD τ) (ms6 t) fullShare ((dats m 0 c).before 6 t d)) :=
  Dat.leavesExact_idle (dats m 0 c) 6 t (idle6 t h3) (noflush6 t h3)
theorem leaves_6_live (c : Dev nD) (t : Fin cfg0.N) (h3 : cond3 (grid0.coords t)) :
    (dats m 0 c).leavesExact 6 t = owns (c : Thread nD τ) (ms6 t) fullShare (outBlk m c t) := by
  unfold Dat.leavesExact; rw [live6 t h3, after_6]

/-- A load through the whole-shape rectangle at zero offsets of a whole memref's contents reads them. -/
theorem readAt_whole {S : Shape} {e : EltTy} (M : Memref sig .tc .vmem S e) (hM : M.IsWhole) (X : S.Idx → Elt F e)
    {off : Fin S.rank → Nat} (h : off = fun _ => 0) (inb : ∀ a, off a + S.size a ≤ S.size a) :
    View.readAt (Elt F) M.view (Rect.unit off S.size inb).toLoadRect (hM.unread X) = X := by
  rw [View.readAt_eq_ld, hM.read_unread, View.ld_unit_zero h]

/-- A load through any rectangle of a whole memref's contents reads them at the rectangle's indices. -/
theorem readAt_ld {S : Shape} {e : EltTy} (M : Memref sig .tc .vmem S e) (hM : M.IsWhole) (X : S.Idx → Elt F e) (r : Rect S) :
    View.readAt (Elt F) M.view r.toLoadRect (hM.unread X) = View.ld X r := by
  rw [View.readAt_eq_ld, hM.read_unread]

theorem z2 : (![0, 0] : Fin 2 → Nat) = fun _ => 0 := by funext a; fin_cases a <;> rfl

/-- One store through the whole-shape rectangle, over anything, reads back its payload. -/
theorem read_writes_whole {S : Shape} {e : EltTy} (v : View sig .tc .vmem S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩), View.canon_unit_zero h]

/-- The stored values are functions: equal operands and an equal index give equal entries. -/
theorem pay1_congr {x x' : Vec F S10000x256 .f32} {w w' : Vec F S256x256 .bf16} (ex : x = x') (ew : w = w') :
    k0_pay1 x w = k0_pay1 x' w' := by subst ex ew; rfl
theorem pay2_congr {s s' : Vec F S10000x256 .bf16} {aL aL' aR aR' : Vec F S400x5000 .f32} {b b' : Vec F S1x256 .f32}
    {w w' : Vec F S256x256 .bf16} {i i' : S400x256.Idx} (es : s = s') (eL : aL = aL') (eR : aR = aR') (eb : b = b') (ew : w = w') (ei : i = i') :
    k0_pay2 s aL aR b w i = k0_pay2 s' aL' aR' b' w' i' := by subst es eL eR eb ew ei; rfl
theorem pay3_congr {s s' : Vec F S10000x256 .bf16} {aL aL' aR aR' : Vec F S400x5000 .f32} {b b' : Vec F S1x256 .f32}
    (es : s = s') (eL : aL = aL') (eR : aR = aR') (eb : b = b') :
    k0_pay3 s aL aR b = k0_pay3 s' aL' aR' b' := by subst es eL eR eb; rfl

/-- What point 0 leaves in the first scratch is the first support matrix. -/
theorem support_left (c : Dev nD) (t : Fin cfg0.N) (ht : t = t0) (h1 : cond1 (grid0.coords t)) (h2 : ¬cond2 (grid0.coords t))
    (h3 : ¬cond3 (grid0.coords t)) (f8 : scM0.view.ty.Contents (Elt F)) :
    scM0.view.read (Elt F) (scM0.view.writes (Elt F) f8
      (runSupport c (grid0.coords t) (ms0 t) (hs0 t) (ms1 t) (hs1 t) (ms2 t) (hs2 t) (ms3 t) (hs3 t) (ms4 t) (hs4 t) (ms5 t) (hs5 t) (ms6 t) (hs6 t)
      scM0 (Memref.isWhole_whole _) scM1 (Memref.isWhole_whole _) h1 h2 h3 (iblk m c 1 t) (iblk m c 2 t)).1) = support0 m c := by
  subst ht
  unfold runSupport; dsimp only
  exact (read_writes_whole _ _ z2 _ _).trans
    (pay1_congr (readAt_whole (ms1 t0) (hs1 t0) (iblk m c 1 t0) z2 _) (readAt_whole (ms2 t0) (hs2 t0) (iblk m c 2 t0) z2 _))

/-- What a point of the third phase leaves in the output window is the result block it forms. -/
theorem out_left (c : Dev nD) (t : Fin cfg0.N) (h1 : ¬cond1 (grid0.coords t)) (h2 : ¬cond2 (grid0.coords t))
    (h3 : cond3 (grid0.coords t)) (f7 : (ms6 t).view.ty.Contents (Elt F)) :
    (ms6 t).view.read (Elt F) ((ms6 t).view.writes (Elt F) f7
      (runOut c (grid0.coords t) (ms0 t) (hs0 t) (ms1 t) (hs1 t) (ms2 t) (hs2 t) (ms3 t) (hs3 t) (ms4 t) (hs4 t) (ms5 t) (hs5 t) (ms6 t) (hs6 t)
      scM0 (Memref.isWhole_whole _) scM1 (Memref.isWhole_whole _) h1 h2 h3 (support1 m c) (iblk m c 0 t) (iblk m c 5 t)).1) = outBlk m c t := by
  unfold runOut; dsimp only
  exact (read_writes_whole _ _ z2 _ _).trans
    (pay3_congr (readAt_whole scM1 (Memref.isWhole_whole _) (support1 m c) z2 _) (readAt_ld (ms0 t) (hs0 t) (iblk m c 0 t) _)
      (readAt_ld (ms0 t) (hs0 t) (iblk m c 0 t) _) (readAt_whole (ms5 t) (hs5 t) (iblk m c 5 t) z2 _))

/-- A point of the second phase adds its 400 rows to those the second scratch agrees on: an entry of the new rows is
    the slice's entry at the row's offset within the slice; an entry of the earlier rows is untouched. -/
theorem hidden_left (c : Dev nD) (t : Fin cfg0.N) (n : ℕ) (hn : t.val = n + 1) (hp : t.val ≤ 25) (h1 : ¬cond1 (grid0.coords t))
    (h2 : cond2 (grid0.coords t)) (h3 : ¬cond3 (grid0.coords t)) (z : Vec F S10000x256 .bf16) (hz : Agree m c n z) :
    Agree m c (n + 1) (scM1.view.read (Elt F) (scM1.view.writes (Elt F) ((Memref.isWhole_whole cc0_scratch1).unread z)
      (runHidden c (grid0.coords t) (ms0 t) (hs0 t) (ms1 t) (hs1 t) (ms2 t) (hs2 t) (ms3 t) (hs3 t) (ms4 t) (hs4 t) (ms5 t) (hs5 t) (ms6 t) (hs6 t)
      scM0 (Memref.isWhole_whole _) scM1 (Memref.isWhole_whole _) h1 h2 h3 (support0 m c) (iblk m c 0 t) (iblk m c 3 t) (iblk m c 4 t) z).1)) := by
  intro y hy
  have hmin : min (n + 1) 25 = n + 1 := Nat.min_eq_left (by omega)
  rw [hmin] at hy
  unfold runHidden; dsimp only
  have ho : k0_off1 (grid0.coords t) = ![400 * n, 0] := by rw [hoff t h2, hn]; rfl
  refine (View.read_writes_cons_rows (d := ![10000, 256]) (View.whole cc0_scratch1) _ (off := k0_off1 (grid0.coords t)) (size := ![400, 256])
    (o := 400 * n) (W := 400) _ _ [] y ho rfl rfl).trans ?_
  split
  · next hin =>
    have hpt : pointOfRow (y 0) = t := Fin.ext (by
      show (y 0).val / 400 + 1 = t.val
      rw [hn]; have := hin.1; have := hin.2; omega)
    unfold support1
    rw [hpt]
    unfold hiddenBlk
    refine pay2_congr (readAt_whole scM0 (Memref.isWhole_whole _) (support0 m c) z2 _) (readAt_ld (ms0 t) (hs0 t) (iblk m c 0 t) _)
      (readAt_ld (ms0 t) (hs0 t) (iblk m c 0 t) _) (readAt_whole (ms3 t) (hs3 t) (iblk m c 3 t) z2 _)
      (readAt_whole (ms4 t) (hs4 t) (iblk m c 4 t) z2 _) ?_
    funext a
    apply Fin.ext
    match a with
    | ⟨0, _⟩ =>
      show (y 0).val - 400 * n = (y 0).val % 400
      have := hin.1; have := hin.2; omega
    | ⟨1, _⟩ =>
      show (y 1).val - 0 = (y 1).val
      omega
  · next hout =>
    rw [View.writes_nil, (Memref.isWhole_whole cc0_scratch1).read_unread]
    refine hz y ?_
    have : (y 0).val < 400 * n := by omega
    exact lt_of_lt_of_le this (Nat.mul_le_mul_left _ (le_min (le_refl _) (by omega)))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [Phi_castSucc, Phi_succ, leaves_0, leaves_1, leaves_2, leaves_3, leaves_4, leaves_5]
  have hN : t.val < 51 := lt_of_lt_of_eq t.isLt N_eq
  by_cases hz : t.val = 0
  · -- point 0: the first support matrix is formed
    have h1 : cond1 (grid0.coords t) := (hcond1 t).mpr hz
    have h2 : ¬cond2 (grid0.coords t) := fun h => by have := (hcond2 t).mp h; omega
    have h3 : ¬cond3 (grid0.coords t) := fun h => by have := (hcond3 t).mp h; omega
    have ht : t = t0 := Fin.ext hz
    rw [leaves_6_idle m c t h3, hz, show Phi m c 0 = Pipeline.ΦA spec0 c from rfl, PhiA_eq,
      show Phi m c (0 + 1) = iprop((owns (c : Thread nD τ) scM0 fullShare (support0 m c)
        ∗ (∃ z, ⌜Agree m c 0 z⌝ ∗ owns (c : Thread nD τ) scM1 fullShare z)) ∗ (∃ r, prngReg c r)) from rfl]
    iintro ⟨⟨⟨HS0, ⟨%z1, HS1⟩⟩, Hg⟩, Ho, ⟨%d0, H0⟩, ⟨%d1, H1⟩, ⟨%d2, H2⟩, ⟨%d3, H3⟩, ⟨%d4, H4⟩, ⟨%d5, H5⟩, H6⟩
    iapply ((runSupport c (grid0.coords t) (ms0 t) (hs0 t) (ms1 t) (hs1 t) (ms2 t) (hs2 t) (ms3 t) (hs3 t) (ms4 t) (hs4 t) (ms5 t) (hs5 t) (ms6 t) (hs6 t)
      scM0 (Memref.isWhole_whole _) scM1 (Memref.isWhole_whole _) h1 h2 h3 (iblk m c 1 t) (iblk m c 2 t)).2 Set.univ _)
    isplitl [H1]; · iexact H1
    isplitl [H2]; · iexact H2
    isplitl [HS0]; · iexact HS0
    iintro ⟨H1, H2, ⟨%f8, HS0⟩⟩
    isplitl [HS0 HS1 Hg]
    · isplitl [HS0 HS1]
      · isplitl [HS0]
        · unfold owns; iexists _; isplitr
          swap; · iexact HS0
          ipureintro
          exact support_left m c t ht h1 h2 h3 f8
        · iexists z1; isplitr; · ipureintro; exact Agree.zero m c z1
          iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · obtain ⟨n, hn⟩ : ∃ n, t.val = n + 1 := ⟨t.val - 1, by omega⟩
    rw [hn, show Phi m c (n + 1) = iprop((owns (c : Thread nD τ) scM0 fullShare (support0 m c)
        ∗ (∃ z, ⌜Agree m c n z⌝ ∗ owns (c : Thread nD τ) scM1 fullShare z)) ∗ (∃ r, prngReg c r)) from rfl,
      show Phi m c (n + 1 + 1) = iprop((owns (c : Thread nD τ) scM0 fullShare (support0 m c)
        ∗ (∃ z, ⌜Agree m c (n + 1) z⌝ ∗ owns (c : Thread nD τ) scM1 fullShare z)) ∗ (∃ r, prngReg c r)) from rfl]
    have h1 : ¬cond1 (grid0.coords t) := fun h => hz ((hcond1 t).mp h)
    by_cases hp : t.val ≤ 25
    · -- points 1..25: one slice of the second support matrix is formed
      have h2 : cond2 (grid0.coords t) := (hcond2 t).mpr ⟨by omega, hp⟩
      have h3 : ¬cond3 (grid0.coords t) := fun h => by have := (hcond3 t).mp h; omega
      rw [leaves_6_idle m c t h3]
      iintro ⟨⟨⟨HS0, ⟨%z, %hz1, HS1⟩⟩, Hg⟩, Ho, ⟨%d0, H0⟩, ⟨%d1, H1⟩, ⟨%d2, H2⟩, ⟨%d3, H3⟩, ⟨%d4, H4⟩, ⟨%d5, H5⟩, H6⟩
      iapply ((runHidden c (grid0.coords t) (ms0 t) (hs0 t) (ms1 t) (hs1 t) (ms2 t) (hs2 t) (ms3 t) (hs3 t) (ms4 t) (hs4 t) (ms5 t) (hs5 t) (ms6 t) (hs6 t)
      scM0 (Memref.isWhole_whole _) scM1 (Memref.isWhole_whole _) h1 h2 h3 (support0 m c) (iblk m c 0 t) (iblk m c 3 t) (iblk m c 4 t) z).2 Set.univ _)
      isplitl [HS0]; · iexact HS0
      isplitl [H0]; · iexact H0
      isplitl [H3]; · iexact H3
      isplitl [H4]; · iexact H4
      isplitl [HS1]; · iexact HS1
      iintro ⟨HS0, H0, H3, H4, HS1⟩
      isplitl [HS0 HS1 Hg]
      · isplitl [HS0 HS1]
        · isplitl [HS0]; · iexact HS0
          iexists _; isplitr
          swap
          · unfold owns; iexists _; isplitr
            swap; · iexact HS1
            ipureintro; rfl
          ipureintro
          exact hidden_left m c t n hn hp h1 h2 h3 z hz1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- points 26..50: one block of the result is formed
      have h2 : ¬cond2 (grid0.coords t) := fun h => by have := (hcond2 t).mp h; omega
      have h3 : cond3 (grid0.coords t) := (hcond3 t).mpr (by omega)
      rw [leaves_6_live m c t h3]
      iintro ⟨⟨⟨HS0, ⟨%z, %hz1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      obtain rfl : z = support1 m c := Agree.eq_of_le m c (by omega) hz1
      iapply ((runOut c (grid0.coords t) (ms0 t) (hs0 t) (ms1 t) (hs1 t) (ms2 t) (hs2 t) (ms3 t) (hs3 t) (ms4 t) (hs4 t) (ms5 t) (hs5 t) (ms6 t) (hs6 t)
      scM0 (Memref.isWhole_whole _) scM1 (Memref.isWhole_whole _) h1 h2 h3 (support1 m c) (iblk m c 0 t) (iblk m c 5 t)).2 Set.univ _)
      isplitl [HS1]; · iexact HS1
      isplitl [H0]; · iexact H0
      isplitl [H5]; · iexact H5
      isplitl [H6]; · iexists _; iexact H6
      iintro ⟨HS1, H0, H5, ⟨%f7, H6⟩⟩
      isplitl [HS0 HS1 Hg]
      · isplitl [HS0 HS1]
        · isplitl [HS0]; · iexact HS0
          iexists _; isplitr; · ipureintro; exact Agree.of_eq m c (n + 1)
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      exact out_left m c t h1 h2 h3 f7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 from rfl]
  exact Idealize.SL.BI.Entails.refl _

/-- After the last point the invariant gives the class's back: what the scratch buffers hold is forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl, Fin.val_last, N_eq,
    show Phi m c 51 = iprop((owns (c : Thread nD τ) scM0 fullShare (support0 m c)
        ∗ (∃ z, ⌜Agree m c 50 z⌝ ∗ owns (c : Thread nD τ) scM1 fullShare z)) ∗ (∃ r, prngReg c r)) from rfl, PhiA_eq]
  iintro ⟨⟨HS0, ⟨%z, -, HS1⟩⟩, Hg⟩
  isplitl [HS0 HS1]
  · isplitl [HS0]
    · iexists _; iexact HS0
    · iexists _; iexact HS1
  iexact Hg

/-! ## The run and the frame -/

set_option backward.isDefEq.respectTransparency.types false in
/-- Every weakly fair execution of @main terminates, and every final state has each array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, nothing faults, and its argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.Spec.lean ====
import Idealize.ShloMosaic.PureOps.Ideal
import Idealize.ShloMosaic.Lib.ValueIdx

/-! # The two-layer graph convolution over the extended reals

With X the features, A the dense adjacency, W0, b0 and W1, b1 the two layers' weights and biases, the result is
`A · (relu (A · (X · W0) + b0) · W1) + b1`: every product a matrix product, each bias added to every row, relu the
maximum with zero. Stated entry by entry, each matrix product a finite sum over the contracted index. -/

noncomputable section

namespace Cert.Spec

open Idealize.ShloMosaic Idealize.ShloMosaic.ValueIdx

/-- The shapes: features and result 10000 × 256, adjacency 10000 × 10000, weights 256 × 256, a bias 256. -/
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩

/-- Zero, as the 32-bit pattern both programs write. -/
abbrev zero32 : EReal := Ideal.ofBits .f32 0x00000000#32

/-- Entry (l, j) of the first support matrix X · W0. -/
def support0 (X : Vec Ideal S10000x256 .f32) (W0 : Vec Ideal S256x256 .f32) (l : Fin 10000) (j : Fin 256) : EReal :=
  ∑ i : Fin 256, X (ix2 l i) * W0 (ix2 i j)

/-- Entry (k, j) of the hidden layer relu (A · (X · W0) + b0). -/
def hidden (X : Vec Ideal S10000x256 .f32) (A : Vec Ideal S10000x10000 .f32) (W0 : Vec Ideal S256x256 .f32)
    (B0 : Vec Ideal S256 .f32) (k : Fin 10000) (j : Fin 256) : EReal :=
  max ((∑ l : Fin 10000, A (ix2 k l) * support0 X W0 l j) + B0 (ix1 j)) zero32

/-- Entry (k, q) of the second support matrix hidden · W1. -/
def support1 (X : Vec Ideal S10000x256 .f32) (A : Vec Ideal S10000x10000 .f32) (W0 : Vec Ideal S256x256 .f32)
    (B0 : Vec Ideal S256 .f32) (W1 : Vec Ideal S256x256 .f32) (k : Fin 10000) (q : Fin 256) : EReal :=
  ∑ j : Fin 256, hidden X A W0 B0 k j * W1 (ix2 j q)

/-- Entry (r, q) of the result A · support1 + b1. -/
def out (X : Vec Ideal S10000x256 .f32) (A : Vec Ideal S10000x10000 .f32) (W0 : Vec Ideal S256x256 .f32)
    (B0 : Vec Ideal S256 .f32) (W1 : Vec Ideal S256x256 .f32) (B1 : Vec Ideal S256 .f32) (r : Fin 10000) (q : Fin 256) : EReal :=
  (∑ k : Fin 10000, A (ix2 r k) * support1 X A W0 B0 W1 k q) + B1 (ix1 q)

/-- The result array, as one function of the six argument arrays. -/
def G (X : Vec Ideal S10000x256 .f32) (A : Vec Ideal S10000x10000 .f32) (W0 : Vec Ideal S256x256 .f32)
    (B0 : Vec Ideal S256 .f32) (W1 : Vec Ideal S256x256 .f32) (B1 : Vec Ideal S256 .f32) : Vec Ideal S10000x256 .f32 :=
  fun y => out X A W0 B0 W1 B1 (y 0) (y 1)

theorem G_apply (X : Vec Ideal S10000x256 .f32) (A : Vec Ideal S10000x10000 .f32) (W0 : Vec Ideal S256x256 .f32)
    (B0 : Vec Ideal S256 .f32) (W1 : Vec Ideal S256x256 .f32) (B1 : Vec Ideal S256 .f32) (r : Fin 10000) (q : Fin 256) :
    G X A W0 B0 W1 B1 (ix2 r q) = out X A W0 B0 W1 B1 r q := rfl

/-- A sum over 10000 indices is the sum over the first 5000 plus the sum over the last 5000. -/
theorem sum_halves (f : Fin 10000 → EReal) :
    (∑ k : Fin 5000, f ⟨k.val, by omega⟩) + (∑ k : Fin 5000, f ⟨5000 + k.val, by omega⟩) = ∑ k : Fin 10000, f k := by
  have h := Fin.sum_univ_add (M := EReal) (a := 5000) (b := 5000) (fun i => f ⟨i.val, i.isLt⟩)
  rw [show (∑ k : Fin 10000, f k) = ∑ i : Fin (5000 + 5000), f ⟨i.val, i.isLt⟩ from rfl, h]
  rfl

end Cert.Spec

end
-- ==== Proof.IdealBlocks.lean ====
import proofs.«170257_g54683523612746_cont_9to1_m_282_8_alg».proof.Proof.IdealStages
import proofs.«170257_g54683523612746_cont_9to1_m_282_8_alg».proof.Proof.Spec
import Idealize.ShloMosaic.Lib.ValueIdx
import Idealize.ShloMosaic.Lib.ValueLayout
import Idealize.ShloMosaic.Lib.Pipeline.Value
import Idealize.ShloMosaic.Lib.StableHlo.Run

/-! # The windows' blocks, read off the argument arrays

Each window's block at a point is a rectangle of its array as the region finds it; the arrays the host lines
before the region wrote (the weights through a change of format, the biases through a reshape to one row) are
those lines' functions of the arguments. Entry by entry, over the extended reals. -/

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Facts₀ Facts

variable (m : (ℓ : Loc nD τ sig) → Buf (Elt Ideal) ℓ)

/-- The six argument arrays as launched. -/
abbrev argX (c : Dev nD) : Vec Ideal S10000x256 .f32 := m ((c.tc : Thread nD τ).loc main_arg0)
abbrev argA (c : Dev nD) : Vec Ideal S10000x10000 .f32 := m ((c.tc : Thread nD τ).loc main_arg1)
abbrev argW0 (c : Dev nD) : Vec Ideal S256x256 .f32 := m ((c.tc : Thread nD τ).loc main_arg2)
abbrev argB0 (c : Dev nD) : Vec Ideal S256 .f32 := m ((c.tc : Thread nD τ).loc main_arg3)
abbrev argW1 (c : Dev nD) : Vec Ideal S256x256 .f32 := m ((c.tc : Thread nD τ).loc main_arg4)
abbrev argB1 (c : Dev nD) : Vec Ideal S256 .f32 := m ((c.tc : Thread nD τ).loc main_arg5)

/-! ## The printed index maps, decided once over the grid -/

/-- In the second phase window 0's block row is the point less one. -/
theorem idx0_hidden : ∀ t : Fin cfg0.N, 1 ≤ t.val → t.val ≤ 25 → win0_0.index t (0 : Fin 2) = t.val - 1 :=
  (by decide +kernel : ∀ t : Fin grid0.N, 1 ≤ t.val → t.val ≤ 25 → win0_0.index t (0 : Fin 2) = t.val - 1)
/-- In the third phase it is the point less twenty-six. -/
theorem idx0_out : ∀ t : Fin cfg0.N, 26 ≤ t.val → win0_0.index t (0 : Fin 2) = t.val - 26 :=
  (by decide +kernel : ∀ t : Fin grid0.N, 26 ≤ t.val → win0_0.index t (0 : Fin 2) = t.val - 26)
/-- Window 0's block spans all columns. -/
theorem idx0_col : ∀ t : Fin cfg0.N, win0_0.index t (1 : Fin 2) = 0 :=
  (by decide +kernel : ∀ t : Fin grid0.N, win0_0.index t (1 : Fin 2) = 0)
/-- Windows 1 to 5 hold their whole arrays: block (0, 0) at every point. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-! ## The arrays the host lines wrote -/

/-- The first weights as the region finds them: the argument in the narrower format. -/
theorem V_main_v0 (c : Dev nD) : (V m c main_v0 : S256x256.Idx → EReal)
    = (truncf .bf16 (argW0 m c) Gen.bitsLt_bf16_f32 : FVec Ideal S256x256 .bf16) := by
  dsimp only [Gen.V, Gen.hostOps0]; after_results

/-- The first bias as the region finds it: the argument as one row. -/
theorem V_main_v1 (c : Dev nD) : (V m c main_v1 : S1x256.Idx → EReal)
    = shapeCast S1x256 (argB0 m c) Gen.shapeCasts_S256_S1x256 := by
  dsimp only [Gen.V, Gen.hostOps0]; after_results; rfl

/-- The second weights as the region finds them. -/
theorem V_main_v2 (c : Dev nD) : (V m c main_v2 : S256x256.Idx → EReal)
    = (truncf .bf16 (argW1 m c) Gen.bitsLt_bf16_f32 : FVec Ideal S256x256 .bf16) := by
  dsimp only [Gen.V, Gen.hostOps0]; after_results

/-- The second bias as the region finds it. -/
theorem V_main_v3 (c : Dev nD) : (V m c main_v3 : S1x256.Idx → EReal)
    = shapeCast S1x256 (argB1 m c) Gen.shapeCasts_S256_S1x256 := by
  dsimp only [Gen.V, Gen.hostOps0]; after_results; rfl

/-! ## The blocks -/

theorem featBlk_apply (c : Dev nD) (t : Fin cfg0.N) (l : Fin 10000) (i : Fin 256) :
    featBlk m c t (ix2 l i) = argX m c (ix2 l i) := by
  show iblk m c 1 t (ix2 l i) = _
  unfold iblk
  rw [View.read_apply]
  show V m c main_arg0 _ = m (c.tc.loc main_arg0) _
  rw [V_main_arg0]
  congr 1
  funext a
  apply Fin.ext
  match a with
  | ⟨0, _⟩ => show win0_1.index t 0 * 10000 + 1 * l.val = l.val; rw [(idx1 t).1]; omega
  | ⟨1, _⟩ => show win0_1.index t 1 * 256 + 1 * i.val = i.val; rw [(idx1 t).2]; omega

theorem wgt0Blk_apply (c : Dev nD) (t : Fin cfg0.N) (i j : Fin 256) :
    wgt0Blk m c t (ix2 i j) = argW0 m c (ix2 i j) := by
  show iblk m c 2 t (ix2 i j) = _
  unfold iblk
  rw [View.read_apply]
  show (V m c main_v0 : S256x256.Idx → EReal) _ = _
  rw [V_main_v0]
  refine (truncf_apply (s := S256x256) (φ := .f32) (ψ := .bf16) (argW0 m c) Gen.bitsLt_bf16_f32 _).trans ?_
  congr 1
  funext a
  apply Fin.ext
  match a with
  | ⟨0, _⟩ => show win0_2.index t 0 * 256 + 1 * i.val = i.val; rw [(idx2 t).1]; omega
  | ⟨1, _⟩ => show win0_2.index t 1 * 256 + 1 * j.val = j.val; rw [(idx2 t).2]; omega

theorem bias0Blk_apply (c : Dev nD) (t : Fin cfg0.N) (j : Fin 256) :
    bias0Blk m c t (ix2 (0 : Fin 1) j) = argB0 m c (ix1 j) := by
  show iblk m c 3 t (ix2 (0 : Fin 1) j) = _
  unfold iblk
  rw [View.read_apply]
  show (V m c main_v1 : S1x256.Idx → EReal) _ = _
  rw [V_main_v1]
  refine (congrArg (shapeCast S1x256 (argB0 m c) Gen.shapeCasts_S256_S1x256) (?_ : _ = ix2 (0 : Fin 1) j)).trans
    (shapeCast_a_1a_apply _ _ _ _)
  funext a
  apply Fin.ext
  match a with
  | ⟨0, _⟩ => show win0_3.index t 0 * 1 + 1 * 0 = 0; rw [(idx3 t).1]
  | ⟨1, _⟩ => show win0_3.index t 1 * 256 + 1 * j.val = j.val; rw [(idx3 t).2]; omega

theorem wgt1Blk_apply (c : Dev nD) (t : Fin cfg0.N) (i j : Fin 256) :
    wgt1Blk m c t (ix2 i j) = argW1 m c (ix2 i j) := by
  show iblk m c 4 t (ix2 i j) = _
  unfold iblk
  rw [View.read_apply]
  show (V m c main_v2 : S256x256.Idx → EReal) _ = _
  rw [V_main_v2]
  refine (truncf_apply (s := S256x256) (φ := .f32) (ψ := .bf16) (argW1 m c) Gen.bitsLt_bf16_f32 _).trans ?_
  congr 1
  funext a
  apply Fin.ext
  match a with
  | ⟨0, _⟩ => show win0_4.index t 0 * 256 + 1 * i.val = i.val; rw [(idx4 t).1]; omega
  | ⟨1, _⟩ => show win0_4.index t 1 * 256 + 1 * j.val = j.val; rw [(idx4 t).2]; omega

theorem bias1Blk_apply (c : Dev nD) (t : Fin cfg0.N) (j : Fin 256) :
    bias1Blk m c t (ix2 (0 : Fin 1) j) = argB1 m c (ix1 j) := by
  show iblk m c 5 t (ix2 (0 : Fin 1) j) = _
  unfold iblk
  rw [View.read_apply]
  show (V m c main_v3 : S1x256.Idx → EReal) _ = _
  rw [V_main_v3]
  refine (congrArg (shapeCast S1x256 (argB1 m c) Gen.shapeCasts_S256_S1x256) (?_ : _ = ix2 (0 : Fin 1) j)).trans
    (shapeCast_a_1a_apply _ _ _ _)
  funext a
  apply Fin.ext
  match a with
  | ⟨0, _⟩ => show win0_5.index t 0 * 1 + 1 * 0 = 0; rw [(idx5 t).1]
  | ⟨1, _⟩ => show win0_5.index t 1 * 256 + 1 * j.val = j.val; rw [(idx5 t).2]; omega

/-- Window 0's block at any point, by its block row. -/
theorem adjBlk_at (c : Dev nD) (t : Fin cfg0.N) (p : Fin 400) (k : Fin 10000) (r : Fin 10000)
    (hr : r.val = win0_0.index t (0 : Fin 2) * 400 + p.val) :
    adjBlk m c t (ix2 p k) = argA m c (ix2 r k) := by
  show iblk m c 0 t (ix2 p k) = _
  unfold iblk
  rw [View.read_apply]
  show V m c main_arg1 _ = m (c.tc.loc main_arg1) _
  rw [V_main_arg1]
  congr 1
  funext a
  apply Fin.ext
  match a with
  | ⟨0, _⟩ => show win0_0.index t 0 * 400 + 1 * p.val = r.val; rw [hr]; omega
  | ⟨1, _⟩ => show win0_0.index t 1 * 10000 + 1 * k.val = k.val; rw [idx0_col t]; omega

/-- At a point of the second phase window 0 holds adjacency rows 400·(t - 1) .. 400·(t - 1) + 399. -/
theorem adjBlk_apply_hidden (c : Dev nD) (t : Fin cfg0.N) (h1 : 1 ≤ t.val) (h2 : t.val ≤ 25) (p : Fin 400) (k : Fin 10000)
    (r : Fin 10000) (hr : r.val = 400 * (t.val - 1) + p.val) :
    adjBlk m c t (ix2 p k) = argA m c (ix2 r k) :=
  adjBlk_at m c t p k r (by rw [idx0_hidden t h1 h2, hr]; omega)

/-- At a point of the third phase window 0 holds adjacency rows 400·(t - 26) .. 400·(t - 26) + 399. -/
theorem adjBlk_apply_out (c : Dev nD) (t : Fin cfg0.N) (h : 26 ≤ t.val) (p : Fin 400) (k : Fin 10000)
    (r : Fin 10000) (hr : r.val = 400 * (t.val - 26) + p.val) :
    adjBlk m c t (ix2 p k) = argA m c (ix2 r k) :=
  adjBlk_at m c t p k r (by rw [idx0_out t h, hr]; omega)

end Cert.KernelIdeal.Body

end
-- ==== Proof.IdealPayloads.lean ====
import proofs.«170257_g54683523612746_cont_9to1_m_282_8_alg».proof.Proof.Gen.KernelIdeal.Skeleton
import proofs.«170257_g54683523612746_cont_9to1_m_282_8_alg».proof.Proof.Spec
import Idealize.ShloMosaic.Lib.ValueIdx
import Idealize.ShloMosaic.Lib.ValueLayout
import Idealize.ShloMosaic.Lib.Pipeline.Value
import Idealize.ShloMosaic.PureOps.Ideal.Laws

/-! # The three stored values of the fused layer, entry by entry, over the extended reals -/

noncomputable section

namespace Cert.KernelIdeal.Payloads

open Cert.KernelIdeal Cert.KernelIdeal.Gen
open Idealize.ShloMosaic Idealize.ShloMosaic.ValueIdx

/-- Row r ≥ 0 of the lower half and row 5000 + r of the upper half of a 10000-row matrix. -/
abbrev lo (k : Fin 5000) : Fin 10000 := ⟨k.val, by have := k.isLt; omega⟩
abbrev hi (k : Fin 5000) : Fin 10000 := ⟨5000 + k.val, by have := k.isLt; omega⟩

/-! ## The three contractions: where each reads its two operands

Each of the three products contracts the left operand's axis 1 with the right operand's axis 0; at result entry (a, b)
and contraction position k the left operand is read at (a, k) and the right at (k, b). -/

theorem featW_lhs0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
theorem featW_lhs1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
theorem featW_rhs0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
theorem featW_rhs1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl

/-- A 10000 × 256 by 256 × 256 product onto a zero accumulator, at an entry, is the sum over the 256 contracted positions. -/
theorem featW_matmul {φ₁ φ₂ : FTy} (l : FVec Ideal S10000x256 φ₁) (r : FVec Ideal S256x256 φ₂) (a : Fin 10000) (b : Fin 256) :
    FloatOps.matmul dot_S10000x256_S256x256_S10000x256_1_0_0_1_n_n none l r (constant (F := Ideal) S10000x256 .f32 0x00000000#32) (ix2 a b)
      = ∑ k : Fin 256, l (ix2 a k) * r (ix2 k b) := by
  rw [Ideal.matmul_constant_zero_apply, ← Equiv.sum_comp (contrEquiv1 dot_S10000x256_S256x256_S10000x256_1_0_0_1_n_n 256 rfl rfl).symm]
  refine Finset.sum_congr rfl fun k _ => ?_
  have hk := contrEquiv1_symm_val dot_S10000x256_S256x256_S10000x256_1_0_0_1_n_n 256 rfl rfl k
  have el : dot_S10000x256_S256x256_S10000x256_1_0_0_1_n_n.lhsIdx (ix2 a b) ((contrEquiv1 dot_S10000x256_S256x256_S10000x256_1_0_0_1_n_n 256 rfl rfl).symm k) = ix2 a k := funext fun x => Fin.ext (by
    match x with
    | ⟨0, _⟩ => exact featW_lhs0 _ _
    | ⟨1, _⟩ => exact (featW_lhs1 _ _).trans hk)
  have er : dot_S10000x256_S256x256_S10000x256_1_0_0_1_n_n.rhsIdx (ix2 a b) ((contrEquiv1 dot_S10000x256_S256x256_S10000x256_1_0_0_1_n_n 256 rfl rfl).symm k) = ix2 k b := funext fun x => Fin.ext (by
    match x with
    | ⟨0, _⟩ => exact (featW_rhs0 _ _).trans hk
    | ⟨1, _⟩ => exact featW_rhs1 _ _)
  rw [el, er]

theorem adjS_lhs0 (i : S400x256.Idx) (q : dot_S400x5000_S5000x256_S400x256_1_0_0_1_n_n.contr.Idx) :
    (dot_S400x5000_S5000x256_S400x256_1_0_0_1_n_n.lhsIdx i q 0).val = (i 0).val := by
  unfold DotDims.lhsIdx
  rw [dif_neg (show ¬(0 : Fin S400x5000.rank) ∈ dot_S400x5000_S5000x256_S400x256_1_0_0_1_n_n.lhsBatch by decide), dif_pos (show (0 : Fin S400x5000.rank) ∈ dot_S400x5000_S5000x256_S400x256_1_0_0_1_n_n.lhsNonContracting by decide)]
  rfl
theorem adjS_lhs1 (i : S400x256.Idx) (q : dot_S400x5000_S5000x256_S400x256_1_0_0_1_n_n.contr.Idx) :
    (dot_S400x5000_S5000x256_S400x256_1_0_0_1_n_n.lhsIdx i q 1).val = (q ⟨0, by decide⟩).val :=
  dot_S400x5000_S5000x256_S400x256_1_0_0_1_n_n.lhsIdx_val_of_single rfl i q
theorem adjS_rhs0 (i : S400x256.Idx) (q : dot_S400x5000_S5000x256_S400x256_1_0_0_1_n_n.contr.Idx) :
    (dot_S400x5000_S5000x256_S400x256_1_0_0_1_n_n.rhsIdx i q 0).val = (q ⟨0, by decide⟩).val :=
  dot_S400x5000_S5000x256_S400x256_1_0_0_1_n_n.rhsIdx_val_of_single rfl i q
theorem adjS_rhs1 (i : S400x256.Idx) (q : dot_S400x5000_S5000x256_S400x256_1_0_0_1_n_n.contr.Idx) :
    (dot_S400x5000_S5000x256_S400x256_1_0_0_1_n_n.rhsIdx i q 1).val = (i 1).val := by
  unfold DotDims.rhsIdx
  rw [dif_neg (show ¬(1 : Fin S5000x256.rank) ∈ dot_S400x5000_S5000x256_S400x256_1_0_0_1_n_n.rhsBatch by decide), dif_pos (show (1 : Fin S5000x256.rank) ∈ dot_S400x5000_S5000x256_S400x256_1_0_0_1_n_n.rhsNonContracting by decide)]
  rfl

/-- A 400 × 5000 by 5000 × 256 product onto a zero accumulator, at an entry, is the sum over the 5000 contracted positions. -/
theorem adjS_matmul {φ₁ φ₂ : FTy} (l : FVec Ideal S400x5000 φ₁) (r : FVec Ideal S5000x256 φ₂) (a : Fin 400) (b : Fin 256) :
    FloatOps.matmul dot_S400x5000_S5000x256_S400x256_1_0_0_1_n_n none l r (constant (F := Ideal) S400x256 .f32 0x00000000#32) (ix2 a b)
      = ∑ k : Fin 5000, l (ix2 a k) * r (ix2 k b) := by
  rw [Ideal.matmul_constant_zero_apply, ← Equiv.sum_comp (contrEquiv1 dot_S400x5000_S5000x256_S400x256_1_0_0_1_n_n 5000 rfl rfl).symm]
  refine Finset.sum_congr rfl fun k _ => ?_
  have hk := contrEquiv1_symm_val dot_S400x5000_S5000x256_S400x256_1_0_0_1_n_n 5000 rfl rfl k
  have el : dot_S400x5000_S5000x256_S400x256_1_0_0_1_n_n.lhsIdx (ix2 a b) ((contrEquiv1 dot_S400x5000_S5000x256_S400x256_1_0_0_1_n_n 5000 rfl rfl).symm k) = ix2 a k := funext fun x => Fin.ext (by
    match x with
    | ⟨0, _⟩ => exact adjS_lhs0 _ _
    | ⟨1, _⟩ => exact (adjS_lhs1 _ _).trans hk)
  have er : dot_S400x5000_S5000x256_S400x256_1_0_0_1_n_n.rhsIdx (ix2 a b) ((contrEquiv1 dot_S400x5000_S5000x256_S400x256_1_0_0_1_n_n 5000 rfl rfl).symm k) = ix2 k b := funext fun x => Fin.ext (by
    match x with
    | ⟨0, _⟩ => exact (adjS_rhs0 _ _).trans hk
    | ⟨1, _⟩ => exact adjS_rhs1 _ _)
  rw [el, er]

theorem hidW_lhs0 (i : S400x256.Idx) (q : dot_S400x256_S256x256_S400x256_1_0_0_1_n_n.contr.Idx) :
    (dot_S400x256_S256x256_S400x256_1_0_0_1_n_n.lhsIdx i q 0).val = (i 0).val := by
  unfold DotDims.lhsIdx
  rw [dif_neg (show ¬(0 : Fin S400x256.rank) ∈ dot_S400x256_S256x256_S400x256_1_0_0_1_n_n.lhsBatch by decide), dif_pos (show (0 : Fin S400x256.rank) ∈ dot_S400x256_S256x256_S400x256_1_0_0_1_n_n.lhsNonContracting by decide)]
  rfl
theorem hidW_lhs1 (i : S400x256.Idx) (q : dot_S400x256_S256x256_S400x256_1_0_0_1_n_n.contr.Idx) :
    (dot_S400x256_S256x256_S400x256_1_0_0_1_n_n.lhsIdx i q 1).val = (q ⟨0, by decide⟩).val :=
  dot_S400x256_S256x256_S400x256_1_0_0_1_n_n.lhsIdx_val_of_single rfl i q
theorem hidW_rhs0 (i : S400x256.Idx) (q : dot_S400x256_S256x256_S400x256_1_0_0_1_n_n.contr.Idx) :
    (dot_S400x256_S256x256_S400x256_1_0_0_1_n_n.rhsIdx i q 0).val = (q ⟨0, by decide⟩).val :=
  dot_S400x256_S256x256_S400x256_1_0_0_1_n_n.rhsIdx_val_of_single rfl i q
theorem hidW_rhs1 (i : S400x256.Idx) (q : dot_S400x256_S256x256_S400x256_1_0_0_1_n_n.contr.Idx) :
    (dot_S400x256_S256x256_S400x256_1_0_0_1_n_n.rhsIdx i q 1).val = (i 1).val := by
  unfold DotDims.rhsIdx
  rw [dif_neg (show ¬(1 : Fin S256x256.rank) ∈ dot_S400x256_S256x256_S400x256_1_0_0_1_n_n.rhsBatch by decide), dif_pos (show (1 : Fin S256x256.rank) ∈ dot_S400x256_S256x256_S400x256_1_0_0_1_n_n.rhsNonContracting by decide)]
  rfl

/-- A 400 × 256 by 256 × 256 product onto a zero accumulator, at an entry, is the sum over the 256 contracted positions. -/
theorem hidW_matmul {φ₁ φ₂ : FTy} (l : FVec Ideal S400x256 φ₁) (r : FVec Ideal S256x256 φ₂) (a : Fin 400) (b : Fin 256) :
    FloatOps.matmul dot_S400x256_S256x256_S400x256_1_0_0_1_n_n none l r (constant (F := Ideal) S400x256 .f32 0x00000000#32) (ix2 a b)
      = ∑ k : Fin 256, l (ix2 a k) * r (ix2 k b) := by
  rw [Ideal.matmul_constant_zero_apply, ← Equiv.sum_comp (contrEquiv1 dot_S400x256_S256x256_S400x256_1_0_0_1_n_n 256 rfl rfl).symm]
  refine Finset.sum_congr rfl fun k _ => ?_
  have hk := contrEquiv1_symm_val dot_S400x256_S256x256_S400x256_1_0_0_1_n_n 256 rfl rfl k
  have el : dot_S400x256_S256x256_S400x256_1_0_0_1_n_n.lhsIdx (ix2 a b) ((contrEquiv1 dot_S400x256_S256x256_S400x256_1_0_0_1_n_n 256 rfl rfl).symm k) = ix2 a k := funext fun x => Fin.ext (by
    match x with
    | ⟨0, _⟩ => exact hidW_lhs0 _ _
    | ⟨1, _⟩ => exact (hidW_lhs1 _ _).trans hk)
  have er : dot_S400x256_S256x256_S400x256_1_0_0_1_n_n.rhsIdx (ix2 a b) ((contrEquiv1 dot_S400x256_S256x256_S400x256_1_0_0_1_n_n 256 rfl rfl).symm k) = ix2 k b := funext fun x => Fin.ext (by
    match x with
    | ⟨0, _⟩ => exact (hidW_rhs0 _ _).trans hk
    | ⟨1, _⟩ => exact hidW_rhs1 _ _)
  rw [el, er]

/-! ## The three stored values -/

/-- The value stored at point 0: the matrix product of the features and the first weights. -/
theorem pay1_apply (x : Vec Ideal S10000x256 .f32) (w : Vec Ideal S256x256 .bf16) (l : Fin 10000) (j : Fin 256) :
    k0_pay1 (F := Ideal) x w (ix2 l j) = ∑ i : Fin 256, x (ix2 l i) * w (ix2 i j) := by
  unfold k0_pay1
  refine (congrFun (shapeCast_self _ _) _).trans ?_
  refine (featW_matmul (truncf .bf16 x bitsLt_bf16_f32) (shapeCast S256x256 w shapeCasts_S256x256_S256x256) l j).trans ?_
  refine Finset.sum_congr rfl fun i _ => ?_
  rw [truncf_apply, shapeCast_self]

/-! ## The adjacency block times the first support matrix, in two column halves, plus the bias row

This value is shared by the second and third phases: the left half of the block meets the lower 5000 rows of the
support matrix, the right half the upper 5000 rows, the two partial products are added, and the one bias row is added
to every row. -/

/-- The left half's product: the contracted position k meets row k of the support matrix. -/
theorem lower_half (s : Vec Ideal S10000x256 .bf16) (a : Vec Ideal S400x5000 .f32) (p : Fin 400) (q : Fin 256) :
    FloatOps.matmul dot_S400x5000_S5000x256_S400x256_1_0_0_1_n_n none (φ₁ := .bf16) (φ₂ := .bf16) (truncf .bf16 a bitsLt_bf16_f32)
        (extractStridedSlice S5000x256 ![0, 0] s slices_S10000x256_o0_0_S5000x256)
        (constant (F := Ideal) S400x256 .f32 0x00000000#32) (ix2 p q)
      = ∑ k : Fin 5000, a (ix2 p k) * s (ix2 (lo k) q) := by
  refine (adjS_matmul (truncf .bf16 a bitsLt_bf16_f32)
    (extractStridedSlice S5000x256 ![0, 0] s slices_S10000x256_o0_0_S5000x256) p q).trans ?_
  refine Finset.sum_congr rfl fun k _ => ?_
  refine congrArg (a (ix2 p k) * ·) ?_
  exact slice2_axis0_apply 0 s slices_S10000x256_o0_0_S5000x256 k q (lo k) (Nat.zero_add _).symm

/-- The right half's product: the contracted position k meets row 5000 + k of the support matrix. -/
theorem upper_half (s : Vec Ideal S10000x256 .bf16) (a : Vec Ideal S400x5000 .f32) (p : Fin 400) (q : Fin 256) :
    FloatOps.matmul dot_S400x5000_S5000x256_S400x256_1_0_0_1_n_n none (φ₁ := .bf16) (φ₂ := .bf16) (truncf .bf16 a bitsLt_bf16_f32)
        (extractStridedSlice S5000x256 ![5000, 0] s slices_S10000x256_o5000_0_S5000x256)
        (constant (F := Ideal) S400x256 .f32 0x00000000#32) (ix2 p q)
      = ∑ k : Fin 5000, a (ix2 p k) * s (ix2 (hi k) q) := by
  refine (adjS_matmul (truncf .bf16 a bitsLt_bf16_f32)
    (extractStridedSlice S5000x256 ![5000, 0] s slices_S10000x256_o5000_0_S5000x256) p q).trans ?_
  refine Finset.sum_congr rfl fun k _ => ?_
  refine congrArg (a (ix2 p k) * ·) ?_
  exact slice2_axis0_apply 5000 s slices_S10000x256_o5000_0_S5000x256 k q (hi k) rfl

/-- The bias row spread over the 400 rows, at an entry, is the bias at its column. -/
theorem bias_rows (b : Vec Ideal S1x256 .f32) (p : Fin 400) (q : Fin 256) :
    broadcastTo S400x256 (shapeCast S1x256 b shapeCasts_S1x256_S1x256) broadcasts_S1x256_S400x256 (ix2 p q)
      = b (ix2 (0 : Fin 1) q) := by
  refine (broadcastTo_1b_ab_apply _ broadcasts_S1x256_S400x256 p q).trans ?_
  rw [shapeCast_self]

/-- The two partial products added and the bias added to every row. -/
def preact (s : Vec Ideal S10000x256 .bf16) (aL aR : Vec Ideal S400x5000 .f32) (b : Vec Ideal S1x256 .f32) :
    FVec Ideal S400x256 .f32 :=
  addf
    (addf
      (FloatOps.matmul dot_S400x5000_S5000x256_S400x256_1_0_0_1_n_n none (φ₁ := .bf16) (φ₂ := .bf16) (truncf .bf16 aL bitsLt_bf16_f32)
        (extractStridedSlice S5000x256 ![0, 0] s slices_S10000x256_o0_0_S5000x256)
        (constant (F := Ideal) S400x256 .f32 0x00000000#32))
      (FloatOps.matmul dot_S400x5000_S5000x256_S400x256_1_0_0_1_n_n none (φ₁ := .bf16) (φ₂ := .bf16) (truncf .bf16 aR bitsLt_bf16_f32)
        (extractStridedSlice S5000x256 ![5000, 0] s slices_S10000x256_o5000_0_S5000x256)
        (constant (F := Ideal) S400x256 .f32 0x00000000#32)))
    (broadcastTo S400x256 (shapeCast S1x256 b shapeCasts_S1x256_S1x256) broadcasts_S1x256_S400x256)

/-- That value at an entry: the two half sums over the contracted positions, then the bias at the entry's column. -/
theorem preact_apply (s : Vec Ideal S10000x256 .bf16) (aL aR : Vec Ideal S400x5000 .f32) (b : Vec Ideal S1x256 .f32)
    (p : Fin 400) (q : Fin 256) :
    preact s aL aR b (ix2 p q)
      = ((∑ k : Fin 5000, aL (ix2 p k) * s (ix2 (lo k) q)) + (∑ k : Fin 5000, aR (ix2 p k) * s (ix2 (hi k) q)))
          + b (ix2 (0 : Fin 1) q) := by
  unfold preact
  refine (addf_apply _ _ _).trans ?_
  refine congrArg₂ (· + ·) ((addf_apply _ _ _).trans (congrArg₂ (· + ·) ?_ ?_)) ?_
  · exact lower_half s aL p q
  · exact upper_half s aR p q
  · exact bias_rows b p q

/-- The value stored at a point of the second phase: with aL, aR the two column halves of an adjacency block and s
    the first support matrix, row p of (relu (aL · s_lower + aR · s_upper + b)) · w. -/
theorem pay2_apply (s : Vec Ideal S10000x256 .bf16) (aL aR : Vec Ideal S400x5000 .f32) (b : Vec Ideal S1x256 .f32)
    (w : Vec Ideal S256x256 .bf16) (p : Fin 400) (q : Fin 256) :
    k0_pay2 (F := Ideal) s aL aR b w (ix2 p q)
      = ∑ j : Fin 256, max (((∑ k : Fin 5000, aL (ix2 p k) * s (ix2 (lo k) j)) + (∑ k : Fin 5000, aR (ix2 p k) * s (ix2 (hi k) j)))
            + b (ix2 (0 : Fin 1) j)) Cert.Spec.zero32 * w (ix2 j q) := by
  have e : k0_pay2 (F := Ideal) s aL aR b w (ix2 p q)
      = FloatOps.matmul dot_S400x256_S256x256_S400x256_1_0_0_1_n_n none (φ₁ := .bf16) (φ₂ := .bf16)
          (truncf .bf16 (maximumf (preact s aL aR b) (broadcast S400x256 (Scalar.ofBits (F := Ideal) .f32 0x00000000#32))) bitsLt_bf16_f32)
          (shapeCast S256x256 w shapeCasts_S256x256_S256x256) (constant (F := Ideal) S400x256 .f32 0x00000000#32) (ix2 p q) := by
    unfold k0_pay2 preact
    exact congrFun (shapeCast_self _ _) _
  refine e.trans ?_
  refine (hidW_matmul _ _ p q).trans ?_
  refine Finset.sum_congr rfl fun j _ => ?_
  rw [shapeCast_self]
  refine congrArg (· * w (ix2 j q)) ?_
  refine (maximumf_apply _ _ _).trans ?_
  rw [preact_apply]
  rfl

/-- The value stored at a point of the third phase: row p of aL · s_lower + aR · s_upper + b. -/
theorem pay3_apply (s : Vec Ideal S10000x256 .bf16) (aL aR : Vec Ideal S400x5000 .f32) (b : Vec Ideal S1x256 .f32)
    (p : Fin 400) (q : Fin 256) :
    k0_pay3 (F := Ideal) s aL aR b (ix2 p q)
      = ((∑ k : Fin 5000, aL (ix2 p k) * s (ix2 (lo k) q)) + (∑ k : Fin 5000, aR (ix2 p k) * s (ix2 (hi k) q)))
          + b (ix2 (0 : Fin 1) q) := by
  refine Eq.trans ?_ (preact_apply s aL aR b p q)
  unfold k0_pay3 preact
  rfl

end Cert.KernelIdeal.Payloads

end
-- ==== Proof.IdealStageValues.lean ====
import proofs.«170257_g54683523612746_cont_9to1_m_282_8_alg».proof.Proof.IdealBlocks
import proofs.«170257_g54683523612746_cont_9to1_m_282_8_alg».proof.Proof.IdealPayloads
import proofs.«170257_g54683523612746_cont_9to1_m_282_8_alg».proof.Proof.Spec

/-! # What the phases form is what the layer's definition says

Entry by entry over the extended reals: the first scratch holds X · W0; the slice a point of the second phase
forms is the corresponding rows of relu (A · (X · W0) + b0) · W1; the block a point of the third phase forms is the
corresponding rows of A · support1 + b1. The only law used is that a sum over 10000 indices is the sum of its two
halves. -/

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Facts₀ Facts

variable (m : (ℓ : Loc nD τ sig) → Buf (Elt Ideal) ℓ)

/-- The left half of a 400 × 10000 block, at entry (p, k), is the block at (p, k). -/
theorem ld_rectL (X : Vec Ideal S400x10000 .f32) (p : Fin 400) (k : Fin 5000) :
    View.ld X rectL (ix2 p k) = X (ix2 p (Payloads.lo k)) := by
  refine congrArg X (funext fun a => Fin.ext ?_)
  match a with
  | ⟨0, _⟩ => show 0 + 1 * p.val = p.val; omega
  | ⟨1, _⟩ => show 0 + 1 * k.val = k.val; omega

/-- The right half of a 400 × 10000 block, at entry (p, k), is the block at (p, 5000 + k). -/
theorem ld_rectR (X : Vec Ideal S400x10000 .f32) (p : Fin 400) (k : Fin 5000) :
    View.ld X rectR (ix2 p k) = X (ix2 p (Payloads.hi k)) := by
  refine congrArg X (funext fun a => Fin.ext ?_)
  match a with
  | ⟨0, _⟩ => show 0 + 1 * p.val = p.val; omega
  | ⟨1, _⟩ => show 5000 + 1 * k.val = 5000 + k.val; omega

theorem support0_apply (c : Dev nD) (l : Fin 10000) (j : Fin 256) :
    support0 m c (ix2 l j) = Cert.Spec.support0 (argX m c) (argW0 m c) l j := by
  unfold support0
  refine (Payloads.pay1_apply _ _ l j).trans ?_
  unfold Cert.Spec.support0
  refine Finset.sum_congr rfl fun i _ => ?_
  rw [featBlk_apply, wgt0Blk_apply]

theorem hiddenBlk_apply (c : Dev nD) (t : Fin cfg0.N) (h1 : 1 ≤ t.val) (h2 : t.val ≤ 25) (p : Fin 400) (q : Fin 256)
    (r : Fin 10000) (hr : r.val = 400 * (t.val - 1) + p.val) :
    hiddenBlk m c t (ix2 p q) = Cert.Spec.support1 (argX m c) (argA m c) (argW0 m c) (argB0 m c) (argW1 m c) r q := by
  unfold hiddenBlk
  refine (Payloads.pay2_apply _ _ _ _ _ p q).trans ?_
  unfold Cert.Spec.support1 Cert.Spec.hidden
  refine Finset.sum_congr rfl fun j _ => ?_
  rw [wgt1Blk_apply, bias0Blk_apply,
    ← Cert.Spec.sum_halves (fun l => argA m c (ix2 r l) * Cert.Spec.support0 (argX m c) (argW0 m c) l j)]
  have eL : ∀ k : Fin 5000, View.ld (adjBlk m c t) rectL (ix2 p k) * support0 m c (ix2 (Payloads.lo k) j)
      = argA m c (ix2 r (Payloads.lo k)) * Cert.Spec.support0 (argX m c) (argW0 m c) (Payloads.lo k) j := fun k => by
    rw [ld_rectL, adjBlk_apply_hidden m c t h1 h2 p (Payloads.lo k) r hr, support0_apply]
  have eR : ∀ k : Fin 5000, View.ld (adjBlk m c t) rectR (ix2 p k) * support0 m c (ix2 (Payloads.hi k) j)
      = argA m c (ix2 r (Payloads.hi k)) * Cert.Spec.support0 (argX m c) (argW0 m c) (Payloads.hi k) j := fun k => by
    rw [ld_rectR, adjBlk_apply_hidden m c t h1 h2 p (Payloads.hi k) r hr, support0_apply]
  rw [Finset.sum_congr rfl fun k _ => eL k, Finset.sum_congr rfl fun k _ => eR k]

theorem support1_apply (c : Dev nD) (k : Fin 10000) (q : Fin 256) :
    support1 m c (ix2 k q) = Cert.Spec.support1 (argX m c) (argA m c) (argW0 m c) (argB0 m c) (argW1 m c) k q := by
  have hk := k.isLt
  exact hiddenBlk_apply m c (pointOfRow k) (show 1 ≤ k.val / 400 + 1 by omega) (show k.val / 400 + 1 ≤ 25 by omega)
    ⟨k.val % 400, Nat.mod_lt _ (by decide)⟩ q k (show k.val = 400 * (k.val / 400 + 1 - 1) + k.val % 400 by omega)

theorem outBlk_apply (c : Dev nD) (t : Fin cfg0.N) (h : 26 ≤ t.val) (p : Fin 400) (q : Fin 256)
    (r : Fin 10000) (hr : r.val = 400 * (t.val - 26) + p.val) :
    outBlk m c t (ix2 p q) = Cert.Spec.out (argX m c) (argA m c) (argW0 m c) (argB0 m c) (argW1 m c) (argB1 m c) r q := by
  unfold outBlk
  refine (Payloads.pay3_apply _ _ _ _ p q).trans ?_
  unfold Cert.Spec.out
  rw [bias1Blk_apply,
    ← Cert.Spec.sum_halves (fun l => argA m c (ix2 r l) * Cert.Spec.support1 (argX m c) (argA m c) (argW0 m c) (argB0 m c) (argW1 m c) l q)]
  have eL : ∀ k : Fin 5000, View.ld (adjBlk m c t) rectL (ix2 p k) * support1 m c (ix2 (Payloads.lo k) q)
      = argA m c (ix2 r (Payloads.lo k))
        * Cert.Spec.support1 (argX m c) (argA m c) (argW0 m c) (argB0 m c) (argW1 m c) (Payloads.lo k) q := fun k => by
    rw [ld_rectL, adjBlk_apply_out m c t h p (Payloads.lo k) r hr, support1_apply]
  have eR : ∀ k : Fin 5000, View.ld (adjBlk m c t) rectR (ix2 p k) * support1 m c (ix2 (Payloads.hi k) q)
      = argA m c (ix2 r (Payloads.hi k))
        * Cert.Spec.support1 (argX m c) (argA m c) (argW0 m c) (argB0 m c) (argW1 m c) (Payloads.hi k) q := fun k => by
    rw [ld_rectR, adjBlk_apply_out m c t h p (Payloads.hi k) r hr, support1_apply]
  rw [Finset.sum_congr rfl fun k _ => eL k, Finset.sum_congr rfl fun k _ => eR k]

end Cert.KernelIdeal.Body

end
-- ==== Proof.IdealValue.lean ====
import proofs.«170257_g54683523612746_cont_9to1_m_282_8_alg».proof.Proof.IdealFrame
import proofs.«170257_g54683523612746_cont_9to1_m_282_8_alg».proof.Proof.IdealStageValues
import proofs.«170257_g54683523612746_cont_9to1_m_282_8_alg».proof.Proof.Spec
import Idealize.ShloMosaic.Lib.Pipeline.Value

/-! # The result array after the run

The output window is written back at points 26 to 50, block t - 26 of the result at point t; these 25 blocks of 400
rows tile the 10000 rows, and block by block they hold the rows of the layer's definition: so the result array after
the run is the specification's `G` of the six arguments. -/

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Facts₀ Facts

variable (m : (ℓ : Loc nD τ sig) → Buf (Elt Ideal) ℓ) (ρ : Dev nD → PrngReg)

/-- The output window is written back exactly at the points of the third phase, -/
theorem flush6 : ∀ t : Fin cfg0.N, (cfg0.win 6).flush t = true ↔ 26 ≤ t.val :=
  (by decide +kernel : ∀ t : Fin grid0.N, win0_6.flush t = true ↔ 26 ≤ t.val)

/-- and there its block is block t - 26 of the rows, the one block of the columns. -/
theorem idx6 : ∀ t : Fin cfg0.N, 26 ≤ t.val → win0_6.index t (0 : Fin 2) = t.val - 26 ∧ win0_6.index t (1 : Fin 2) = 0 :=
  (by decide +kernel : ∀ t : Fin grid0.N, 26 ≤ t.val → win0_6.index t (0 : Fin 2) = t.val - 26 ∧ win0_6.index t (1 : Fin 2) = 0)

/-- An index of the result array is in a point's block iff each coordinate is in the block's range on its axis. -/
theorem mem_blk6 (t : Fin cfg0.N) (i : S10000x256.Idx) :
    i ∈ ((cfg0.win 6).blk t).view.set ↔ ∀ a : Fin 2, win0_6.index t a * S400x256.size a ≤ (i a).val ∧ (i a).val < win0_6.index t a * S400x256.size a + S400x256.size a := by
  show i ∈ ((View.whole main_v4).slice (win0_6.rect t)).set ↔ _
  rw [View.set_slice_whole, Rect.mem_set_unit]
  exact Iff.rfl

/-- What a point of the third phase writes back is its block of `G`: row p of the block is row 400·(t - 26) + p. -/
theorem flushed6_eq  (c : Dev nD) (t : Fin cfg0.N) (ht : 26 ≤ t.val) :
    (dats m 0 c).flushed 6 t = ((cfg0.win 6).blk t).view.read (Elt Ideal) (Cert.Spec.G (argX m c) (argA m c) (argW0 m c) (argB0 m c) (argW1 m c) (argB1 m c)) := by
  show (cfg0.win 6).cut (grid0.coords t) ((dats m 0 c).after 6 t) = _
  rw [after_6]
  obtain ⟨e0, e1⟩ := idx6 t ht
  have hN : t.val < 51 := lt_of_lt_of_eq t.isLt N_eq
  funext j
  show outBlk m c t j = Cert.Spec.G (argX m c) (argA m c) (argW0 m c) (argB0 m c) (argW1 m c) (argB1 m c) (((cfg0.win 6).blk t).view.emb j)
  have hp : (j 0).val < 400 := (j 0).isLt
  have hq : (j 1).val < 256 := (j 1).isLt
  have hr : 400 * (t.val - 26) + (j 0).val < 10000 := by omega
  have hj : j = ix2 (⟨(j 0).val, hp⟩ : Fin 400) (⟨(j 1).val, hq⟩ : Fin 256) := by
    funext a; match a with | ⟨0, _⟩ => rfl | ⟨1, _⟩ => rfl
  have hemb : ((cfg0.win 6).blk t).view.emb j = ix2 (⟨400 * (t.val - 26) + (j 0).val, hr⟩ : Fin 10000) (⟨(j 1).val, hq⟩ : Fin 256) := by
    funext a; apply Fin.ext
    match a with
    | ⟨0, _⟩ => show win0_6.index t (0 : Fin 2) * 400 + 1 * (j 0).val = 400 * (t.val - 26) + (j 0).val; omega
    | ⟨1, _⟩ => show win0_6.index t (1 : Fin 2) * 256 + 1 * (j 1).val = (j 1).val; omega
  rw [hemb, Cert.Spec.G_apply]
  refine (congrArg (outBlk m c t) hj).trans ?_
  exact outBlk_apply m c t ht ⟨(j 0).val, hp⟩ ⟨(j 1).val, hq⟩ ⟨400 * (t.val - 26) + (j 0).val, hr⟩ rfl

/-- Every row of the result is in the block of the point that forms it: row r is point r / 400 + 26's. -/
theorem covered6 (c : Dev nD) (i : S10000x256.Idx) :
    ∃ t : Fin cfg0.N, (cfg0.win 6).flush t = true ∧ i ∈ ((cfg0.win 6).blk t).view.set := by
  have hi0 : (i 0).val < 10000 := (i 0).isLt
  have hi1 : (i 1).val < 256 := (i 1).isLt
  have hlt : (i 0).val / 400 + 26 < cfg0.N := by rw [N_eq]; omega
  have ht : 26 ≤ (⟨(i 0).val / 400 + 26, hlt⟩ : Fin cfg0.N).val := Nat.le_add_left _ _
  obtain ⟨e0, e1⟩ := idx6 ⟨(i 0).val / 400 + 26, hlt⟩ ht
  refine ⟨⟨(i 0).val / 400 + 26, hlt⟩, (flush6 _).mpr ht, ?_⟩
  rw [mem_blk6]
  intro a
  match a with
  | ⟨0, _⟩ =>
    show win0_6.index ⟨(i 0).val / 400 + 26, hlt⟩ (0 : Fin 2) * 400 ≤ (i 0).val ∧ (i 0).val < win0_6.index ⟨(i 0).val / 400 + 26, hlt⟩ (0 : Fin 2) * 400 + 400
    rw [e0]; show ((i 0).val / 400 + 26 - 26) * 400 ≤ (i 0).val ∧ (i 0).val < ((i 0).val / 400 + 26 - 26) * 400 + 400
    omega
  | ⟨1, _⟩ =>
    show win0_6.index ⟨(i 0).val / 400 + 26, hlt⟩ (1 : Fin 2) * 256 ≤ (i 1).val ∧ (i 1).val < win0_6.index ⟨(i 0).val / 400 + 26, hlt⟩ (1 : Fin 2) * 256 + 256
    rw [e1]; omega

/-- The result array after the last write-back is `G` of the arguments. -/
theorem final_out  (c : Dev nD) :
    (dats m 0 c).arrAt 6 cfg0.N
      = Cert.Spec.G (argX m c) (argA m c) (argW0 m c) (argB0 m c) (argW1 m c) (argB1 m c) :=
  (dats m 0 c).arrAt_eq_of_cover 6 (Cert.Spec.G (argX m c) (argA m c) (argW0 m c) (argB0 m c) (argW1 m c) (argB1 m c))
    (fun t hf => flushed6_eq m  c t ((flush6 t).mp hf)) (covered6 c)

/-- Every weakly fair execution of the idealized kernel terminates with its result at `G` of the six arguments, the
    arguments unchanged. -/
theorem run_spec  :
    θ_run (defs (F := Ideal)) (onTc (τ := τ) (main (F := Ideal))) ⟨m, fun _ => 0, ρ⟩ fun r => ∀ c : Dev nD,
      r.2.mem ((c.tc : Thread nD τ).loc main_v4)
        = Cert.Spec.G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final_out m  c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.Body

end
-- ==== Proof.Reference.lean ====
import proofs.«170257_g54683523612746_cont_9to1_m_282_8_alg».proof.Proof.Gen.ReferenceIdeal.Run
import proofs.«170257_g54683523612746_cont_9to1_m_282_8_alg».proof.Proof.Gen.ReferenceIdeal.Read
import proofs.«170257_g54683523612746_cont_9to1_m_282_8_alg».proof.Proof.Spec
import Idealize.ShloMosaic.Lib.ValueIdx
import Idealize.ShloMosaic.PureOps.Ideal.Laws

/-! # The reference computes the layer's definition

The reference is thirteen host operations: X · W0, A · that, the first bias broadcast over the rows and added, the
maximum with zero, times W1, A · that, the second bias broadcast and added. Read entry by entry over the extended
reals, each matrix product the sum over its contracted index, that is the specification's `G`. -/

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx
open Idealize.SL Idealize.SL.Sem

open Cert.ReferenceIdeal.Read

/-! ## The index functions of the four products and the two bias broadcasts, at an index given by its coordinates -/

/-- Left operand of a product with a 256-long contraction: row of the result, contracted index. -/
theorem lidx_v0_at (l : Fin 10000) (j : Fin 256) (i : Fin 256) : lidx_main_v0 (ix2 l j) i = ix2 l i := by
  funext a; match a with | ⟨0, _⟩ => rfl | ⟨1, _⟩ => rfl
/-- Right operand of that product: contracted index, column of the result. -/
theorem ridx_v0_at (l : Fin 10000) (j : Fin 256) (i : Fin 256) : ridx_main_v0 (ix2 l j) i = ix2 i j := by
  funext a; match a with | ⟨0, _⟩ => rfl | ⟨1, _⟩ => rfl
theorem lidx_v1_at (k : Fin 10000) (j : Fin 256) (l : Fin 10000) : lidx_main_v1 (ix2 k j) l = ix2 k l := by
  funext a; match a with | ⟨0, _⟩ => rfl | ⟨1, _⟩ => rfl
theorem ridx_v1_at (k : Fin 10000) (j : Fin 256) (l : Fin 10000) : ridx_main_v1 (ix2 k j) l = ix2 l j := by
  funext a; match a with | ⟨0, _⟩ => rfl | ⟨1, _⟩ => rfl
theorem lidx_v6_at (k : Fin 10000) (q : Fin 256) (j : Fin 256) : lidx_main_v6 (ix2 k q) j = ix2 k j := by
  funext a; match a with | ⟨0, _⟩ => rfl | ⟨1, _⟩ => rfl
theorem ridx_v6_at (k : Fin 10000) (q : Fin 256) (j : Fin 256) : ridx_main_v6 (ix2 k q) j = ix2 j q := by
  funext a; match a with | ⟨0, _⟩ => rfl | ⟨1, _⟩ => rfl
theorem lidx_v7_at (r : Fin 10000) (q : Fin 256) (k : Fin 10000) : lidx_main_v7 (ix2 r q) k = ix2 r k := by
  funext a; match a with | ⟨0, _⟩ => rfl | ⟨1, _⟩ => rfl
theorem ridx_v7_at (r : Fin 10000) (q : Fin 256) (k : Fin 10000) : ridx_main_v7 (ix2 r q) k = ix2 k q := by
  funext a; match a with | ⟨0, _⟩ => rfl | ⟨1, _⟩ => rfl
/-- A bias broadcast over the rows reads the bias at the column. -/
theorem idx_v2_v3_at (k : Fin 10000) (j : Fin 256) : idx_main_v2 (idx_main_v3 (ix2 k j)) = ix1 j := by
  funext a; match a with | ⟨0, _⟩ => rfl
theorem idx_v8_v9_at (r : Fin 10000) (q : Fin 256) : idx_main_v8 (idx_main_v9 (ix2 r q)) = ix1 q := by
  funext a; match a with | ⟨0, _⟩ => rfl

/-! ## The stages, entry by entry -/

section stages

variable (X : Vec Ideal S10000x256 .f32) (A : Vec Ideal S10000x10000 .f32) (W0 : Vec Ideal S256x256 .f32)
  (B0 : Vec Ideal S256 .f32) (W1 : Vec Ideal S256x256 .f32) (B1 : Vec Ideal S256 .f32)

/-- X · W0. -/
theorem v0_at (l : Fin 10000) (j : Fin 256) :
    val_main_v0 (F := Ideal) X W0 (ix2 l j) = Cert.Spec.support0 X W0 l j := by
  rw [val_main_v0_apply]
  unfold Cert.Spec.support0
  refine Finset.sum_congr rfl fun i _ => ?_
  rw [lidx_v0_at, ridx_v0_at]

/-- A · (X · W0). -/
theorem v1_at (k : Fin 10000) (j : Fin 256) :
    val_main_v1 (F := Ideal) X A W0 (ix2 k j) = ∑ l : Fin 10000, A (ix2 k l) * Cert.Spec.support0 X W0 l j := by
  rw [val_main_v1_apply]
  refine Finset.sum_congr rfl fun l _ => ?_
  rw [lidx_v1_at, ridx_v1_at, v0_at]

/-- relu (A · (X · W0) + b0). -/
theorem v5_at (k : Fin 10000) (j : Fin 256) :
    val_main_v5 (F := Ideal) X A W0 B0 (ix2 k j) = Cert.Spec.hidden X A W0 B0 k j := by
  rw [val_main_v5_apply, val_main_v4_apply, v1_at, val_main_v3_apply, val_main_v2_apply, idx_v2_v3_at,
    val_main_call0_v0_apply, val_main_call0_cst_apply]
  rfl

/-- relu (…) · W1. -/
theorem v6_at (k : Fin 10000) (q : Fin 256) :
    val_main_v6 (F := Ideal) X A W0 B0 W1 (ix2 k q) = Cert.Spec.support1 X A W0 B0 W1 k q := by
  rw [val_main_v6_apply]
  unfold Cert.Spec.support1
  refine Finset.sum_congr rfl fun j _ => ?_
  rw [lidx_v6_at, ridx_v6_at, v5_at]

/-- A · (relu (…) · W1) + b1. -/
theorem v10_at (r : Fin 10000) (q : Fin 256) :
    val_main_v10 (F := Ideal) X A W0 B0 W1 B1 (ix2 r q) = Cert.Spec.out X A W0 B0 W1 B1 r q := by
  rw [val_main_v10_apply, val_main_v7_apply, val_main_v9_apply, val_main_v8_apply, idx_v8_v9_at]
  unfold Cert.Spec.out
  refine congrArg (· + B1 (ix1 q)) (Finset.sum_congr rfl fun k _ => ?_)
  rw [lidx_v7_at, ridx_v7_at, v6_at]

/-- The reference's composed term is the specification's function of the six arguments. -/
theorem result_eq : val_main_v10 (F := Ideal) X A W0 B0 W1 B1 = Cert.Spec.G X A W0 B0 W1 B1 := by
  funext i
  obtain ⟨r, q, rfl⟩ : ∃ (r : Fin 10000) (q : Fin 256), i = ix2 r q :=
    ⟨i 0, i 1, eq_ix2 (n0 := 10000) (n1 := 256) i⟩
  exact (v10_at X A W0 B0 W1 B1 r q).trans (Cert.Spec.G_apply X A W0 B0 W1 B1 r q).symm

end stages

/-- Every weakly fair execution of the reference terminates with its result at `G` of the six arguments, the
    arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v10)
        = Cert.Spec.G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run (defs (F := Ideal)) _ _).mono (fun _ h c => ⟨(h c).1.trans ?_, (h c).2⟩)
    (Cert.ReferenceIdeal.Value.run (F := Ideal) m ρ)
  rw [val_main_v10_eq, result_eq]

end Cert.ReferenceIdeal.RefValue

end
-- ==== Proof.lean ====
/- A two-layer graph convolution, fused into one kernel, against its definition.

   With X the features, A the dense adjacency and W0, b0, W1, b1 the layers' weights and biases, both programs compute
   A · (relu (A · (X · W0) + b0) · W1) + b1. The kernel walks a grid of 51 points: at point 0 it forms X · W0 and keeps it in a
   scratch buffer; at points 1 to 25 it forms, 400 rows at a time, relu (A · (X · W0) + b0) · W1 and keeps it in a second scratch
   buffer; at points 26 to 50 it forms, 400 rows at a time, the result. Each product with A is taken in two halves of the
   contracted index and the halves added. Over the extended reals a change of float format is the identity and a sum may be
   split in two, so entry by entry both programs are the same nest of finite sums (Proof/Spec.lean): no law beyond the
   splitting of a sum is used, and finiteness of the inputs is not needed.

   The frames: the kernel runs at any float instance. Between points the first scratch holds X · W0 and the second scratch
   agrees with the second support matrix on the rows formed so far; the output window is idle until point 26 and is then
   written whole at every point (Proof/IdealFrame.lean for the idealized kernel, Proof/BitsFrame.lean for the word-level one).
   The reference is thirteen host operations; its run is read back one operation at a time (Proof/Reference.lean).
   The idealization rewrote nothing, so there is nothing to preserve. -/
import proofs.«170257_g54683523612746_cont_9to1_m_282_8_alg».proof.Defs
import proofs.«170257_g54683523612746_cont_9to1_m_282_8_alg».proof.Proof.Gen.Pre_finite_inputs
import proofs.«170257_g54683523612746_cont_9to1_m_282_8_alg».proof.Proof.BitsFrame
import proofs.«170257_g54683523612746_cont_9to1_m_282_8_alg».proof.Proof.IdealFrame
import proofs.«170257_g54683523612746_cont_9to1_m_282_8_alg».proof.Proof.IdealValue
import proofs.«170257_g54683523612746_cont_9to1_m_282_8_alg».proof.Proof.Reference

set_option maxRecDepth 16384

noncomputable section

namespace Cert.Proof

open Idealize.ShloMosaic Idealize.ShloMosaic.TcCoe Idealize.SL.Sem

/-- The word-level kernel runs to the end, faults nowhere, and leaves its arguments as they were. -/
theorem frame_kernel : Cert.frame_Kernel := fun m ρ _ => Cert.Kernel.Body.frame m ρ

/-- So does the idealized kernel. -/
theorem frame_kernelIdeal : Cert.frame_KernelIdeal := fun m ρ _ => Cert.KernelIdeal.Body.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefValue.run_spec m ρ)

/-- The idealization rewrote no operation. -/
theorem preserves : Cert.preserves_Kernel_KernelIdeal := trivial

/-- From memories that agree on the six arguments both idealized programs end with the result array at the same function
    of the arguments: the nest of sums that defines the layer. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Body.run_spec m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
